-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000000x32 : Shape := ⟨2, ![1000000, 32]⟩
abbrev S10x32 : Shape := ⟨2, ![10, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S10x32 : S_.BroadcastsInDim S10x32 (![] : Fin 0 → Fin S10x32.rank)
  reducesTo_S10x32_S_d0_1 : S10x32.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S10x32 1) : IVec S_ 1 :=
  let main_c_5 : IVec S_ 1 := constantI S_ 1 1#1
  let main_v17 : IVec S_ 1 := (fun x v => Host.reduce IntOp.andi x v reducesTo_S10x32_S_d0_1 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 1000000#32
  let main_v21 : IVec S16384 32 := broadcastInDim S16384 ![] bcast_S_S16384 main_c_7
  let main_v22 : IVec S16384 1 := cmpi .slt main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 1000000#32
  let main_v28 : IVec S16384 32 := broadcastInDim S16384 ![] bcast_S_S16384 main_c_10
  let main_v29 : IVec S16384 1 := cmpi .slt main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S1000000x32 .f32) (main_arg3 : FVec F S1000000x32 .f32) (main_arg4 : FVec F S10x32 .f32) (main_arg5 : FVec F S10x32 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S10x32 .f32 := Host.absf main_arg4
  let main_cst_2 : FVec F S_ .f32 := constant S_ .f32 0x7F800000#32
  let main_v10 : FVec F S10x32 .f32 := broadcastInDim S10x32 ![] bcast_S_S10x32 main_cst_2
  let main_v11 : IVec S10x32 1 := cmpf .olt main_v9 main_v10
  let main_c_3 : IVec S_ 1 := constantI S_ 1 1#1
  let main_v12 : IVec S_ 1 := (fun x v => Host.reduce IntOp.andi x v reducesTo_S10x32_S_d0_1 h_S_) main_v11 main_c_3
  let main_v13 : IVec S_ 1 := andi main_v8 main_v12
  let main_v14 : FVec F S10x32 .f32 := Host.absf main_arg5
  let main_cst_4 : FVec F S_ .f32 := constant S_ .f32 0x7F800000#32
  let main_v15 : FVec F S10x32 .f32 := broadcastInDim S10x32 ![] bcast_S_S10x32 main_cst_4
  let main_v16 : IVec S10x32 1 := cmpf .olt main_v14 main_v15
  fn_part1 (F := F) main_arg0 main_arg1 main_v13 main_v16
-- ==== Kernel.lean ====
abbrev S16384 : Shape := ⟨1, ![16384]⟩
abbrev S1000000x32 : Shape := ⟨2, ![1000000, 32]⟩
abbrev S10x32 : Shape := ⟨2, ![10, 32]⟩
abbrev S1000000x1x32 : Shape := ⟨3, ![1000000, 1, 32]⟩
abbrev S16384x1x32 : Shape := ⟨3, ![16384, 1, 32]⟩
abbrev S1x1x32 : Shape := ⟨3, ![1, 1, 32]⟩
abbrev S1 : Shape := ⟨1, ![1]⟩
abbrev S16384x32 : Shape := ⟨2, ![16384, 32]⟩
abbrev S32x10 : Shape := ⟨2, ![32, 10]⟩
abbrev S4096x32 : Shape := ⟨2, ![4096, 32]⟩
abbrev S4096 : Shape := ⟨1, ![4096]⟩
abbrev S4096x1 : Shape := ⟨2, ![4096, 1]⟩
abbrev S4096x10 : Shape := ⟨2, ![4096, 10]⟩

abbrev nBuf : Space → Nat
  | .hbm => 12
  | .vmem => 16
  | .smem => 2
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S10x32, .f32⟩
  | .hbm, ⟨3, _⟩ => ⟨S10x32, .f32⟩
  | .hbm, ⟨4, _⟩ => ⟨S1000000x1x32, .f32⟩
  | .hbm, ⟨5, _⟩ => ⟨S1000000x1x32, .f32⟩
  | .hbm, ⟨6, _⟩ => ⟨S16384x1x32, .f32⟩
  | .hbm, ⟨7, _⟩ => ⟨S16384x1x32, .f32⟩
  | .hbm, ⟨8, _⟩ => ⟨S16384x32, .f32⟩
  | .hbm, ⟨9, _⟩ => ⟨S16384x32, .f32⟩
  | .hbm, ⟨10, _⟩ => ⟨S32x10, .f32⟩
  | .hbm, ⟨11, _⟩ => ⟨S16384, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S4096x32, .f32⟩
  | .local _ .vmem, ⟨9, _⟩ => ⟨S4096x32, .f32⟩
  | .local _ .vmem, ⟨10, _⟩ => ⟨S4096x32, .f32⟩
  | .local _ .vmem, ⟨11, _⟩ => ⟨S4096x32, .f32⟩
  | .local _ .vmem, ⟨12, _⟩ => ⟨S32x10, .f32⟩
  | .local _ .vmem, ⟨13, _⟩ => ⟨S10x32, .f32⟩
  | .local _ .vmem, ⟨14, _⟩ => ⟨S4096, .f32⟩
  | .local _ .vmem, ⟨15, _⟩ => ⟨S4096, .f32⟩
  | .local _ .smem, ⟨0, _⟩ => ⟨S16384, .i32⟩
  | .local _ .smem, ⟨1, _⟩ => ⟨S16384, .i32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1000000x32_S1000000x1x32 : S1000000x32.ShapeCasts S1000000x1x32
  numel1_S1 : S1.numel = 1
  inb_S1x1x32_S1x1x32_0_0_0 : ∀ a, (![0, 0, 0] : Fin 3 → Nat) a + S1x1x32.size a ≤ S1x1x32.size a
  h_S1x1x32 : 0 < S1x1x32.numel
  shapeCasts_S1x1x32_S1x1x32 : S1x1x32.ShapeCasts S1x1x32
  shapeCasts_S16384x1x32_S16384x32 : S16384x1x32.ShapeCasts S16384x32
  transposes_S10x32_S32x10_1_0 : S10x32.Transposes [1, 0] S32x10
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  reduces_S4096x32_S4096 : S4096x32.Reduces [1] S4096
  shapeCasts_S4096_S4096x1 : S4096.ShapeCasts S4096x1
  broadcasts_S4096x1_S4096x32 : S4096x1.Broadcasts S4096x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S10x32_S10x32_0_0 : ∀ a, (![0, 0] : Fin 2 → Nat) a + S10x32.size a ≤ S10x32.size a
  h_S10x32 : 0 < S10x32.numel
  bitsLt_bf16_f32 : FTy.bits .bf16 < FTy.bits .f32
  reduces_S4096x10_S4096 : S4096x10.Reduces [1] S4096
  broadcasts_S4096x1_S4096x10 : S4096x1.Broadcasts S4096x10
  inb_S4096_S4096_0 : ∀ a, (![0] : Fin 1 → Nat) a + S4096.size a ≤ S4096.size a
  h_S4096 : 0 < S4096.numel
  dot_S4096x32_S32x10_S4096x10_1_0_0_1_n_n_wf : DotDims.WF S4096x32 S32x10 S4096x10 [1] [0] [0] [1] [] []
  dot_S4096x10_S10x32_S4096x32_1_0_0_1_n_n_wf : DotDims.WF S4096x10 S10x32 S4096x32 [1] [0] [0] [1] [] []
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32.size a ≤ S16384x1x32.size a
  hwx0_2 : ∀ i : grid0.Coords, EltTy.bits .f32 = 32 ∨ (Rect.block (s := S16384x1x32) S1x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S16384x1x32.size a
  hwx0_3 : ∀ i : grid0.Coords, EltTy.bits .f32 = 32 ∨ (Rect.block (s := S16384x1x32) S1x1x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S16384x32.size a
  hwx1_0 : ∀ i : grid1.Coords, EltTy.bits .f32 = 32 ∨ (Rect.block (s := S16384x32) S4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S16384x32.size a
  hwx1_1 : ∀ i : grid1.Coords, EltTy.bits .f32 = 32 ∨ (Rect.block (s := S16384x32) S4096x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x10.size a ≤ S32x10.size a
  hwx1_2 : ∀ i : grid1.Coords, EltTy.bits .f32 = 32 ∨ (Rect.block (s := S32x10) S32x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x32.size a ≤ S10x32.size a
  hwx1_3 : ∀ i : grid1.Coords, EltTy.bits .f32 = 32 ∨ (Rect.block (s := S10x32) S10x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S16384.size a
  hwx1_4 : ∀ i : grid1.Coords, EltTy.bits .f32 = 32 ∨ (Rect.block (s := S16384) S4096.size (cc1_transform_4 i) (hinb1_4 i)).WholeWords (EltTy.packing .f32)

variable [Facts₀]

def dot_S4096x32_S32x10_S4096x10_1_0_0_1_n_n : DotDims S4096x32 S32x10 S4096x10 where
  lhsContracting := [1]
  rhsContracting := [0]
  lhsNonContracting := [0]
  rhsNonContracting := [1]
  lhsBatch := []
  rhsBatch := []
  wf := dot_S4096x32_S32x10_S4096x10_1_0_0_1_n_n_wf
def dot_S4096x10_S10x32_S4096x32_1_0_0_1_n_n : DotDims S4096x10 S10x32 S4096x32 where
  lhsContracting := [1]
  rhsContracting := [0]
  lhsNonContracting := [0]
  rhsNonContracting := [1]
  lhsBatch := []
  rhsBatch := []
  wf := dot_S4096x10_S10x32_S4096x32_1_0_0_1_n_n_wf

abbrev spec0_0 : Pipeline.WinSpec sig grid0.rank :=
  Pipeline.WinSpec.ofSpec (Memref.whole main_v0) S1x1x32.size reads0_0 false false 2 stage0_0 sem0_0 nbuf0_0 hstage0_0

abbrev spec0_1 : Pipeline.WinSpec sig grid0.rank :=
  Pipeline.WinSpec.ofSpec (Memref.whole main_v1) S1x1x32.size reads0_1 false false 2 stage0_1 sem0_1 nbuf0_1 hstage0_1

abbrev spec0_2 : Pipeline.WinSpec sig grid0.rank :=
  Pipeline.WinSpec.ofSpec (Memref.whole main_v2_0) S1x1x32.size reads0_2 true false 2 stage0_2 sem0_2 nbuf0_2 hstage0_2

abbrev spec0_3 : Pipeline.WinSpec sig grid0.rank :=
  Pipeline.WinSpec.ofSpec (Memref.whole main_v2_1) S1x1x32.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x32.size a ≤ S1000000x1x32.size a), EltTy.bits .f32 = 32 ∨ (Rect.block (s := S1000000x1x32) S1x1x32.size (cc0_transform_0 k0_off1_inb numel1_S1 pf i) h).WholeWords (EltTy.packing .f32)) ∧
  (∀ i : grid0.Coords, ∃ h : (∀ a, (cc0_transform_1 k0_off1_inb numel1_S1 pf i a + 1) * S1x1x32.size a ≤ S1000000x1x32.size a), EltTy.bits .f32 = 32 ∨ (Rect.block (s := S1000000x1x32) S1x1x32.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | ⟨_ + 4, h⟩ => absurd h (Nat.not_lt.2 (Nat.le_add_left _ _))
abbrev win1_0 : Pipeline.Window sig grid1 :=
  Pipeline.Window.ofSpec (Memref.whole main_v3) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S32x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S10x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  harr0 : ∀ w, (spec0 w).arr.IsWhole

variable [Facts]
-- ==== ReferenceIdeal.lean ====
abbrev S16384 : Shape := ⟨1, ![16384]⟩
abbrev S1000000x32 : Shape := ⟨2, ![1000000, 32]⟩
abbrev S10x32 : Shape := ⟨2, ![10, 32]⟩
abbrev S_ : Shape := ⟨0, ![]⟩
abbrev S16384x1 : Shape := ⟨2, ![16384, 1]⟩
abbrev S16384x32 : Shape := ⟨2, ![16384, 32]⟩
abbrev S32x10 : Shape := ⟨2, ![32, 10]⟩
abbrev S16384x10 : Shape := ⟨2, ![16384, 10]⟩

abbrev nBuf : Space → Nat
  | .hbm => 74
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S10x32, .f32⟩
  | .hbm, ⟨5, _⟩ => ⟨S10x32, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x32, .f32⟩
  | .hbm, ⟨15, _⟩ => ⟨S16384x32, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x32, .f32⟩
  | .hbm, ⟨27, _⟩ => ⟨S16384x32, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x32, .f32⟩
  | .hbm, ⟨37, _⟩ => ⟨S16384x32, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S32x10, .f32⟩
  | .hbm, ⟨52, _⟩ => ⟨S16384x10, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384x1, .f32⟩
  | .hbm, ⟨59, _⟩ => ⟨S16384x10, .f32⟩
  | .hbm, ⟨60, _⟩ => ⟨S16384x10, .f32⟩
  | .hbm, ⟨61, _⟩ => ⟨S16384x10, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x10, .f32⟩
  | .hbm, ⟨66, _⟩ => ⟨S16384x10, .f32⟩
  | .hbm, ⟨67, _⟩ => ⟨S16384x32, .f32⟩
  | .hbm, ⟨68, _⟩ => ⟨S16384x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384, .f32⟩
  | .hbm, ⟨73, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x32_S16384_d1 : S16384x32.ReducesTo [1] S16384
  h_S_ : 0 < S_.numel
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  transposes_S10x32_S32x10_1_0 : S10x32.Transposes [1, 0] S32x10
  reducesTo_S16384x10_S16384_d1 : S16384x10.ReducesTo [1] S16384
  bcast_S16384x1_S16384x10_0_1 : S16384x1.BroadcastsInDim S16384x10 (![0, 1] : Fin 2 → Fin S16384x10.rank)
  gather_S1000000x32_S16384x1_S16384x32_1_0_n_n_0_1_132_wf : GatherDims.WF S1000000x32 S16384x1 S16384x32 [1] [0] [] [0] [] 1 ![1, 32]
  dot_S16384x32_S32x10_S16384x10_1_0_0_1_n_n_wf : DotDims.WF S16384x32 S32x10 S16384x10 [1] [0] [0] [1] [] []
  dot_S16384x10_S10x32_S16384x32_1_0_0_1_n_n_wf : DotDims.WF S16384x10 S10x32 S16384x32 [1] [0] [0] [1] [] []

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def dot_S16384x32_S32x10_S16384x10_1_0_0_1_n_n : DotDims S16384x32 S32x10 S16384x10 where
  lhsContracting := [1]
  rhsContracting := [0]
  lhsNonContracting := [0]
  rhsNonContracting := [1]
  lhsBatch := []
  rhsBatch := []
  wf := dot_S16384x32_S32x10_S16384x10_1_0_0_1_n_n_wf
def dot_S16384x10_S10x32_S16384x32_1_0_0_1_n_n : DotDims S16384x10 S10x32 S16384x32 where
  lhsContracting := [1]
  rhsContracting := [0]
  lhsNonContracting := [0]
  rhsNonContracting := [1]
  lhsBatch := []
  rhsBatch := []
  wf := dot_S16384x10_S10x32_S16384x32_1_0_0_1_n_n_wf

class Facts : Prop extends Facts₀ where

variable [Facts]
-- ==== Proof.KGather.lean ====
/-
  The gather call's body at one grid point: it copies the user row it was handed into the user output block and the
  item row into the item output block, whole block to whole block, and touches nothing else (the two id tables are
  arguments it never reads).
-/
import proofs.«428979_j90804198572513_1_alg».proof.Proof.Gen.Kernel.Skeleton
import proofs.«428979_j90804198572513_1_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body loads and stores through: the whole 1 × 1 × 32 block. -/
abbrev rowRect : Rect S1x1x32 := Rect.unit (s := S1x1x32) ![0, 0, 0] S1x1x32.size inb_S1x1x32_S1x1x32_0_0_0

/-- What the body leaves in the user output block, from the user row block. -/
def userOut (x : Vec F S1x1x32 .f32) : Vec F S1x1x32 .f32 := View.canon [⟨rowRect, k0_pay1 (View.ld x rowRect)⟩]
/-- What it leaves in the item output block, from the item row block. -/
def itemOut (x : Vec F S1x1x32 .f32) : Vec F S1x1x32 .f32 := View.canon [⟨rowRect, k0_pay2 (View.ld x rowRect)⟩]

/-- The offsets of the rectangle are all zero. -/
theorem rowRect_zero : (![0, 0, 0] : Fin 3 → Nat) = fun _ => 0 := funext fun a => by fin_cases a <;> rfl

/-- The copy is the identity on the block. -/
theorem userOut_eq (x : Vec F S1x1x32 .f32) : userOut x = x := by
  unfold userOut
  rw [View.canon_unit_zero rowRect_zero]
  rw [View.ld_unit_zero (S := S1x1x32) rowRect_zero]
  exact shapeCast_self _ _
theorem itemOut_eq (x : Vec F S1x1x32 .f32) : itemOut x = x := by
  unfold itemOut
  rw [View.canon_unit_zero rowRect_zero]
  rw [View.ld_unit_zero (S := S1x1x32) rowRect_zero]
  exact shapeCast_self _ _

/-- One store through the whole-block rectangle covers the block. -/
theorem cover_row (p : Vec F S1x1x32 .f32) (y : S1x1x32.Idx) :
    ∃ pc ∈ ([⟨rowRect, p⟩] : List (View.Piece (Elt F) S1x1x32 .f32)), y ∈ pc.1.set :=
  View.cover_of_tiled [⟨rowRect, p⟩] S1x1x32.size (by rfl) y

set_option maxHeartbeats 1000000 in
/-- The body on whole staging memrefs: the two row blocks are read and kept, each output block ends as the copy. -/
theorem sound_gather (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x32 .f32) (harg3 : arg3.IsWhole) (arg4 : Memref sig .tc .vmem S1x1x32 .f32) (harg4 : arg4.IsWhole)
    (arg5 : Memref sig .tc .vmem S1x1x32 .f32) (harg5 : arg5.IsWhole) (arg6 : Memref sig .tc .vmem S1x1x32 .f32) (harg6 : arg6.IsWhole)
    (x0 x1 : Vec F S1x1x32 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (userOut x0) ∗ owns (c : Thread nD τ) arg6 fullShare (itemOut x1)) -∗ K ⟨⟩))
      ⊢ wp frame (wpE (defs₀ (F := F)) Variants.none c none) E
          (cc0__gather_kernel i arg1 harg1 arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_row _)
  iexists _; isplitr
  swap; · iexact H3
  ipureintro
  exact View.read_writes_eq_canon _ _ _ (cover_row _)

end Cert.Kernel.Hand

end
-- ==== Proof.KTables.lean ====
/-
  The two index tables of the gather call (user ids, item ids), as the launch memory holds them on the program's one
  device, and the condition the gather's index maps need of them: every id names a row of its 1000000-row table.
-/
import proofs.«428979_j90804198572513_1_alg».proof.Proof.Gen.Kernel.Regions

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The id tables' contents: table 0 the user ids, table 1 the item ids. -/
def tbl : pre0.Contents (Elt F) := fun j => m (((0 : Dev nD) : Thread nD τ).loc (pre0.ref j))

/-- Every row block the two table-indexed windows fetch lies inside its table. -/
abbrev Ok : Prop := ok0 (F := F) (tbl m)

end Cert.Kernel.Hand

end
-- ==== Proof.KRegion0.lean ====
/-
  The gather call as a pipeline region whose two input windows are indexed through the id tables, entered from any
  contents V of the core's buffers, at the tables' contents as the launch memory holds them (under the condition that
  every id names a row). Point t fetches row user_ids[t] of the user table and row item_ids[t] of the item table, and
  writes them back as row t of the two gathered matrices.
-/
import proofs.«428979_j90804198572513_1_alg».proof.Proof.KGather
import proofs.«428979_j90804198572513_1_alg».proof.Proof.KTables
import proofs.«428979_j90804198572513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m)
variable (V : (c : Dev nD) → (b : Ref sig .tc) → Buf (Elt F) ((c : Thread nD τ).loc b))

/-- The tables' contents as admissible contents, and the gather pipeline at them. -/
abbrev adm0 : (pcfg0 (F := F)).Adm := ⟨tbl m, hO⟩
abbrev cfgM : Pipeline.Cfg sig Λ₀ := cfg0 (adm0 m hO)

/-- Window w's block at point t, read off its array as the region finds it; for the two table-indexed windows the
    block index is the point's id word. -/
def iblk0 (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V c (Pipeline.arrRef spec0 w))

/-- An input window's current staging buffer holds its block at every point. -/
theorem before0_0_of {c : Dev nD} (dat : Dat τ (Elt F) Unit ℕ (UR sig nD τ) ℕ (cfgM m hO) c) (hA : dat.A 0 = V c (Pipeline.arrRef spec0 0))
    (hafter : ∀ t, dat.after 0 t = iblk0 m hO V c 0 t) (t : Fin (cfgM m hO).N) (d) : dat.before 0 t d = iblk0 m hO V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfgM m hO) c) (hA : dat.A 1 = V c (Pipeline.arrRef spec0 1))
    (hafter : ∀ t, dat.after 1 t = iblk0 m hO V c 1 t) (t : Fin (cfgM m hO).N) (d) : dat.before 1 t d = iblk0 m hO V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, as the pipeline passes it to the body, and its wholeness. -/
abbrev ms0_0 (t : Fin (cfgM m hO).N) : Memref sig .tc .vmem S1x1x32 .f32 := spec0_0.stage ((cfgM m hO).slots t 0)
abbrev hs0_0 (t : Fin (cfgM m hO).N) : (ms0_0 m hO t).IsWhole := hstage0_0 (((cfgM m hO).slots t 0).cast nbuf0_0)
abbrev ms0_1 (t : Fin (cfgM m hO).N) : Memref sig .tc .vmem S1x1x32 .f32 := spec0_1.stage ((cfgM m hO).slots t 1)
abbrev hs0_1 (t : Fin (cfgM m hO).N) : (ms0_1 m hO t).IsWhole := hstage0_1 (((cfgM m hO).slots t 1).cast nbuf0_1)
abbrev ms0_2 (t : Fin (cfgM m hO).N) : Memref sig .tc .vmem S1x1x32 .f32 := spec0_2.stage ((cfgM m hO).slots t 2)
abbrev hs0_2 (t : Fin (cfgM m hO).N) : (ms0_2 m hO t).IsWhole := hstage0_2 (((cfgM m hO).slots t 2).cast nbuf0_2)
abbrev ms0_3 (t : Fin (cfgM m hO).N) : Memref sig .tc .vmem S1x1x32 .f32 := spec0_3.stage ((cfgM m hO).slots t 3)
abbrev hs0_3 (t : Fin (cfgM m hO).N) : (ms0_3 m hO t).IsWhole := hstage0_3 (((cfgM m hO).slots t 3).cast nbuf0_3)

/-- The body at point t, on what the pipeline calls it with: the two tables whole, then the four staging memrefs. -/
abbrev bodyAt0 (t : Fin (cfgM m hO).N) : Prog (TpuEff nD τ sig (Elt F) Λ₀ .tc) PUnit :=
  cc0__gather_kernel (grid0.coords t) (Memref.whole main_arg0) (Memref.isWhole_whole _) (Memref.whole main_arg1) (Memref.isWhole_whole _)
    (ms0_0 m hO t) (hs0_0 m hO t) (ms0_1 m hO t) (hs0_1 m hO t) (ms0_2 m hO t) (hs0_2 m hO t) (ms0_3 m hO t) (hs0_3 m hO t)

/-- The tables held whole on core c at their launch contents: what rides in the region's invariant, untouched. -/
abbrev tablesHeld (c : Dev nD) : sProp 𝕄 :=
  Pipeline.prefHeld (Ix := Unit) (Name := ℕ) (U := UR sig nD τ) (Lvl := ℕ) pre0 c (fun _ => fullShare) (tbl m)

/-- The region's proof data: the arrays as found; after the body each row buffer at its block and each output buffer
    at the copy of its row block; the invariant the scratch, the generator register and the tables; nothing owed. -/
def dat0 (c : Dev nD) : Dat τ (Elt F) Unit ℕ (UR sig nD τ) ℕ (cfgM m hO) c where
  A w := V c (Pipeline.arrRef spec0 w)
  after w t := match w with
    | ⟨0, _⟩ => iblk0 m hO V c 0 t
    | ⟨1, _⟩ => iblk0 m hO V c 1 t
    | ⟨2, _⟩ => userOut (iblk0 m hO V c 0 t)
    | ⟨3, _⟩ => itemOut (iblk0 m hO V c 1 t)
  Φ _ := iprop(Pipeline.ΦA spec0 c ∗ tablesHeld m c)
  q _ := fullShare
  owed _ := 0

theorem A_eq0 (c : Dev nD) (w : Fin (cfgM m hO).W) : (dat0 m hO V c).A w = V c (Pipeline.arrRef spec0 w) := by dsimp only [dat0]
theorem after0_0 (c : Dev nD) (t : Fin (cfgM m hO).N) : (dat0 m hO V c).after 0 t = iblk0 m hO V c 0 t := by dsimp only [dat0]; rfl
theorem after0_1 (c : Dev nD) (t : Fin (cfgM m hO).N) : (dat0 m hO V c).after 1 t = iblk0 m hO V c 1 t := by dsimp only [dat0]; rfl
theorem after0_2 (c : Dev nD) (t : Fin (cfgM m hO).N) : (dat0 m hO V c).after 2 t = userOut (iblk0 m hO V c 0 t) := by dsimp only [dat0]; rfl
theorem after0_3 (c : Dev nD) (t : Fin (cfgM m hO).N) : (dat0 m hO V c).after 3 t = itemOut (iblk0 m hO V c 1 t) := by dsimp only [dat0]; rfl

theorem before0_0 (c : Dev nD) (t : Fin (cfgM m hO).N) (d) : (dat0 m hO V c).before 0 t d = iblk0 m hO V c 0 t :=
  before0_0_of m hO V (dat0 m hO V c) (A_eq0 m hO V c 0) (after0_0 m hO V c) t d
theorem before0_1 (c : Dev nD) (t : Fin (cfgM m hO).N) (d) : (dat0 m hO V c).before 1 t d = iblk0 m hO V c 1 t :=
  before0_1_of m hO V (dat0 m hO V c) (A_eq0 m hO V c 1) (after0_1 m hO V c) t d

/-- What the body is called with at point t, the windows one by one, -/
def bodyPre0 (c : Dev nD) (t : Fin (cfgM m hO).N) : sProp 𝕄 :=
  iprop((dat0 m hO V c).Φ t.castSucc ∗ (dat0 m hO V c).owesAt () t.castSucc
    ∗ (∃ d, owns (c : Thread nD τ) (ms0_0 m hO t) fullShare ((dat0 m hO V c).before 0 t d))
    ∗ (∃ d, owns (c : Thread nD τ) (ms0_1 m hO t) fullShare ((dat0 m hO V c).before 1 t d))
    ∗ (∃ d, owns (c : Thread nD τ) (ms0_2 m hO t) fullShare ((dat0 m hO V c).before 2 t d))
    ∗ (∃ d, owns (c : Thread nD τ) (ms0_3 m hO t) fullShare ((dat0 m hO V c).before 3 t d)))

/-- and what it returns. -/
def bodyPost0 (c : Dev nD) (t : Fin (cfgM m hO).N) : sProp 𝕄 :=
  iprop((dat0 m hO V c).Φ t.succ ∗ (dat0 m hO V c).owesAt () t.succ
    ∗ owns (c : Thread nD τ) (ms0_0 m hO t) fullShare ((dat0 m hO V c).after 0 t)
    ∗ owns (c : Thread nD τ) (ms0_1 m hO t) fullShare ((dat0 m hO V c).after 1 t)
    ∗ owns (c : Thread nD τ) (ms0_2 m hO t) fullShare ((dat0 m hO V c).after 2 t)
    ∗ owns (c : Thread nD τ) (ms0_3 m hO t) fullShare ((dat0 m hO V c).after 3 t))

/-- The body at any point: the two row buffers hold their blocks, so the copy's triple applies; the invariant (the
    tables in it) and the core's dues pass through unread. -/
theorem sound_body0 (c : Dev nD) (t : Fin (cfgM m hO).N) :
    bodyPre0 m hO V c t ⊢ wp frame (wpE (defs₀ (F := F)) Variants.none c none) Set.univ (bodyAt0 m hO t) (fun _ => bodyPost0 m hO V c t) := by
  unfold bodyPre0 bodyPost0 bodyAt0
  simp only [before0_0, before0_1]
  rw [show (dat0 m hO V c).Φ t.succ = (dat0 m hO V c).Φ t.castSucc from rfl,
    show (dat0 m hO V c).owesAt () t.succ = (dat0 m hO V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_gather c Set.univ _ _ _ _ _ _ _ _ _ _ _ _ _ (iblk0 m hO V c 0 t) (iblk0 m hO V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) m hO V c) (defs₀ (F := F)) Variants.none () Set.univ := fun t => by
  rw [bigSep_W0, bigSep_W0]
  exact sound_body0 m hO V c t

end Cert.Kernel.Hand

end
-- ==== Proof.KCompute.lean ====
/-
  The scoring call's body at one grid point: from a block of 4096 gathered user rows, a block of 4096 gathered item
  rows, the transposed attention matrix and the memory matrix (all read and kept) it stores the 4096 scores of the block.
-/
import proofs.«428979_j90804198572513_1_alg».proof.Proof.Gen.Kernel.Skeleton
import proofs.«428979_j90804198572513_1_alg».proof.Proof.Gen.Kernel.Launch
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rowsRect : Rect S4096x32 := Rect.unit (s := S4096x32) ![0, 0] S4096x32.size inb_S4096x32_S4096x32_0_0
abbrev attRect : Rect S32x10 := Rect.unit (s := S32x10) ![0, 0] S32x10.size inb_S32x10_S32x10_0_0
abbrev memRect : Rect S10x32 := Rect.unit (s := S10x32) ![0, 0] S10x32.size inb_S10x32_S10x32_0_0
abbrev outRect : Rect S4096 := Rect.unit (s := S4096) ![0] S4096.size inb_S4096_S4096_0

/-- What the body leaves in the score block, from the four input blocks: its one store, over the body's arithmetic. -/
def scoreOut (x0 x1 : Vec F S4096x32 .f32) (x2 : Vec F S32x10 .f32) (x3 : Vec F S10x32 .f32) : Vec F S4096 .f32 :=
  View.canon [⟨outRect, k1_pay1 (k1_pay2 (View.ld x0 rowsRect)) (k1_pay3 (View.ld x1 rowsRect)) (View.ld x3 memRect)
    (k1_pay4 (View.ld x0 rowsRect) (View.ld x1 rowsRect) (View.ld x2 attRect))
    (k1_pay5 (View.ld x0 rowsRect) (View.ld x1 rowsRect) (View.ld x2 attRect))⟩]

/-- The one store covers the score block: its rectangle is the whole block. -/
theorem cover_out (p0 : Vec F S4096 .f32) (y : S4096.Idx) :
    ∃ pc ∈ ([⟨outRect, p0⟩] : List (View.Piece (Elt F) S4096 .f32)), y ∈ pc.1.set :=
  View.cover_of_tiled [⟨outRect, p0⟩] S4096.size (by rfl) y

set_option maxHeartbeats 1000000 in
/-- The body on whole staging memrefs: the four input blocks are read and kept, the score block ends at `scoreOut`. -/
theorem sound_compute (c : Dev nD) (E : Set ℕ) (i : grid1.Coords)
    (arg1 : Memref sig .tc .vmem S4096x32 .f32) (harg1 : arg1.IsWhole) (arg2 : Memref sig .tc .vmem S4096x32 .f32) (harg2 : arg2.IsWhole)
    (arg3 : Memref sig .tc .vmem S32x10 .f32) (harg3 : arg3.IsWhole) (arg4 : Memref sig .tc .vmem S10x32 .f32) (harg4 : arg4.IsWhole)
    (arg5 : Memref sig .tc .vmem S4096 .f32) (harg5 : arg5.IsWhole)
    (x0 x1 : Vec F S4096x32 .f32) (x2 : Vec F S32x10 .f32) (x3 : Vec F S10x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (scoreOut x0 x1 x2 x3)) -∗ K ⟨⟩))
      ⊢ wp frame (wpE (defs₀ (F := F)) Variants.none c none) E
          (cc1__compute_kernel i arg1 harg1 arg2 harg2 arg3 harg3 arg4 harg4 arg5 harg5) K := by
  simp only [cc1__compute_kernel_eq_skeleton]; unfold cc1__compute_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Hand

end
-- ==== Proof.KRegion1.lean ====
/-
  The scoring call as a pipeline region, entered from any contents V of the core's buffers: what each window's block is
  at a grid point, what the body leaves in each staging buffer, and the body's obligation at every point. The region
  runs 4 points; point t reads rows 4096 t … 4096 t + 4095 of the two gathered matrices, and the two small matrices whole.
-/
import proofs.«428979_j90804198572513_1_alg».proof.Proof.KCompute
import proofs.«428979_j90804198572513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or kept from
    an earlier point at the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The region's proof data: the arrays as found; after the body each input buffer at its block and the score buffer
    at the body's result of the four input blocks; the scratch-and-generator invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => scoreOut (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = scoreOut (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_compute c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program run: two host reshapes, the gather call, two host reshapes and a transpose, the scoring call.
  The core's buffer contents are followed from the launch through the four items (each host stretch applies its
  operations, each call leaves its result arrays at what its write-backs fold to and every other buffer as it found it),
  each call is given as a region over the thread state "every unscoped buffer at the current contents, the generator
  register somewhere, nothing owed", and the launch theorem for a list of segments gives: every weakly fair execution
  terminates, and at the end every unscoped buffer holds the last contents. The id tables sit in scalar memory among
  the unscoped buffers; the gather region takes them out at entry, keeps them whole in its invariant, and puts them back.
-/
import proofs.«428979_j90804198572513_1_alg».proof.Proof.KRegion0
import proofs.«428979_j90804198572513_1_alg».proof.Proof.KRegion1
import proofs.«428979_j90804198572513_1_alg».proof.Proof.Gen.Kernel.Regions
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-! ## The buffer contents at each boundary -/

/-- At launch; after the first host stretch (the gather call's entry). -/
abbrev W0 (c : Dev nD) : Valuation τ sig (Elt F) := fun b => m (c, b)
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- At the gather call's exit: its arrays at what the pipeline leaves, every other buffer as entered. -/
def W2 (c : Dev nD) : Valuation τ sig (Elt F) :=
  Pipeline.withArrays spec0 c (W1 m c) fun w => (dat0 m hO (U1 m) c).arrAt w (cfgM m hO).N
theorem W2_arr (c : Dev nD) (w : Fin (cfgM m hO).W) :
    W2 m hO c (Proc.devRef .tc (Pipeline.arrRef spec0 w)) = (dat0 m hO (U1 m) c).arrAt w (cfgM m hO).N := by
  unfold W2; exact Pipeline.withArrays_arr spec0 winFacts0.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m hO c b
theorem hF0 (c : Dev nD) (w : Fin (cfgM m hO).W) : (dat0 m hO (U1 m) c).arrAt w (cfgM m hO).N = U2 m hO c (Pipeline.arrRef spec0 w) :=
  (W2_arr m hO c w).symm
theorem hrest0 (c : Dev nD) : ∀ b, b ∉ Finset.univ.image (Pipeline.arrRef spec0) → U2 m hO c b = U1 m c b :=
  fun b hb => W2_of_ne m hO c b fun w e => hb (Finset.mem_image.mpr ⟨w, Finset.mem_univ _, e⟩)

/-- After the second host stretch (the scoring call's entry); at the scoring call's exit. -/
abbrev W3 (c : Dev nD) : Valuation τ sig (Elt F) := StableHlo.after hostOps1 (W2 m hO c)
abbrev U3 : (c : Dev nD) → (b : Ref sig .tc) → Buf (Elt F) ((c : Thread nD τ).loc b) := fun c b => W3 m hO c b
def W4 (c : Dev nD) : Valuation τ sig (Elt F) :=
  Pipeline.withArrays spec1 c (W3 m hO c) fun w => (dat1 (U3 m hO) c).arrAt w cfg1.N
theorem W4_arr (c : Dev nD) (w : Fin cfg1.W) :
    W4 m hO c (Proc.devRef .tc (Pipeline.arrRef spec1 w)) = (dat1 (U3 m hO) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb
abbrev U4 : (c : Dev nD) → (b : Ref sig .tc) → Buf (Elt F) ((c : Thread nD τ).loc b) := fun c b => W4 m hO c b
theorem hF1 (c : Dev nD) (w : Fin cfg1.W) : (dat1 (U3 m hO) c).arrAt w cfg1.N = U4 m hO c (Pipeline.arrRef spec1 w) :=
  (W4_arr m hO c w).symm
theorem hrest1 (c : Dev nD) : ∀ b, b ∉ Finset.univ.image (Pipeline.arrRef spec1) → U4 m hO c b = U3 m hO c b :=
  fun b hb => W4_of_ne m hO c b fun w e => hb (Finset.mem_image.mpr ⟨w, Finset.mem_univ _, e⟩)

/-- The first host stretch writes neither id table: at the gather call's entry they hold their launch contents. -/
theorem U1_pre (c : Dev nD) (k : Fin 2) : U1 m c (pre0.ref k) = tbl m k := by
  obtain rfl : c = 0 := Subsingleton.elim _ _
  fin_cases k
  · exact V1_of m 0 main_arg0 (by decide)
  · exact V1_of m 0 main_arg1 (by decide)

/-! ## The proof data family and the thread state -/

/-- The tables' admissible contents, call by call: the gather call's are the id tables, the scoring call has none. -/
abbrev adm : (p : Fin 2) → (pcfgs (F := F) p).Adm
  | ⟨0, _⟩ => adm0 m hO
  | ⟨1, _⟩ => Pipeline.Cfg.toPCfg_adm (Val := Elt F) cfg1
  | ⟨_ + 2, h⟩ => absurd h (Nat.not_lt.2 (Nat.le_add_left _ _))

/-- Every pipeline's proof data, each at its region's entry contents. -/
def pdats : (p : Fin 2) → (c : Dev nD) → Dat τ (Elt F) Unit ℕ (UR sig nD τ) ℕ (Pipeline.pin (pcfgs (F := F)) (adm m hO) p) c
  | ⟨0, _⟩ => fun c => dat0 m hO (U1 m) c
  | ⟨1, _⟩ => fun c => dat1 (U3 m hO) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers from contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues. -/
abbrev Tₙ (c : Dev nD) : sProp 𝕄 := iprop(StableHlo.held (c : Thread nD τ) (Pipeline.ucRefs τ sig) (W4 m hO c) ∗ ∃ r, prngReg c r)

/-- The unscoped buffers that are no array of the gather call are its two tables at their launch contents and the rest. -/
theorem rest0_split (c : Dev nD) :
    (Pipeline.unscopedRest (Ix := Unit) (Name := ℕ) (U := UR sig nD τ) (Lvl := ℕ) spec0 c (U1 m c) : sProp 𝕄)
      = iprop(tablesHeld m c ∗ Pipeline.unscopedRestP (Ix := Unit) (Name := ℕ) (U := UR sig nD τ) (Lvl := ℕ) pre0 spec0 c (U1 m c)) := by
  rw [Pipeline.unscopedRest_split preFacts0 c (U1 m c), show (fun k => U1 m c (pre0.ref k)) = tbl m from funext fun k => U1_pre m c k]

/-! ## The two calls as regions -/

set_option backward.isDefEq.respectTransparency.types false in
/-- The gather call: entered from every unscoped buffer at W1, left at W2. -/
def reg0 : Pipeline.RegionSeg (pcfgs (F := F)) (adm m hO) (pdats m hO) () defs₀ 𝒱₀ L lv 0 where
  win := winFacts0.to₀
  block_pos := block_pos0
  stage_whole := stage_whole0
  K := PEmpty
  osem k := k.elim
  ho := Pipeline.OwnSemFacts.none _
  hbody c := (body_obligation0 m hO (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hO c) ∗ R c)
  X c := iprop(∃ r, prngReg c r)
  Y c := iprop((∃ r, prngReg c r) ∗ tablesHeld m c)
  Z c := Pipeline.unscopedRestP (Ix := Unit) (Name := ℕ) (U := UR sig nD τ) (Lvl := ℕ) pre0 spec0 c (U1 m c)
  hentry c := by
    rw [Pipeline.ownSems0_none]
    have hsplit : (unscopedBufs c (U1 m c) : sProp 𝕄)
        ⊢ iprop((pdats m hO 0 c).arrays ((pdats m hO 0 c).arrAt · 0)
            ∗ Pipeline.unscopedRest (Ix := Unit) (Name := ℕ) (U := UR sig nD τ) (Lvl := ℕ) spec0 c (U1 m c)) :=
      Pipeline.arrays_of_unscopedBufs (p := 0) (pcfgs (F := F)) (adm m hO) (pdats m hO) winFacts0 arr_whole0 c
        ((pdats m hO 0 c).share_full fun _ => rfl) (U1 m c) fun _ => rfl
    rw [Pipeline.unscopedBufs_held, rest0_split] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = iprop(Pipeline.ΦA spec0 c ∗ tablesHeld m c) from rfl]; unfold Pipeline.ΦA
    iintro ⟨Hp, Ht, Hr⟩
    isplitr [Ht]
    · isplitl [Hr]; · iexact Hr
      iexact Hp
    iexact Ht
  hout c := by
    rw [Pipeline.ownSems0_none, show (pdats m hO 0 c).Φ (Fin.last _) = iprop(Pipeline.ΦA spec0 c ∗ tablesHeld m c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m hO 0 c).arrays ((pdats m hO 0 c).arrAt · (cfgM m hO).N)
          ∗ Pipeline.unscopedRest (Ix := Unit) (Name := ℕ) (U := UR sig nD τ) (Lvl := ℕ) spec0 c (U1 m c))
        ⊢ (unscopedBufs c (U2 m hO c) : sProp 𝕄) :=
      Pipeline.unscopedBufs_of_arrays (p := 0) (pcfgs (F := F)) (adm m hO) (Ix := Unit) (Name := ℕ) (U := UR sig nD τ) (Lvl := ℕ)
        winFacts0 arr_whole0 c (pdats m hO) ((pdats m hO 0 c).share_full fun _ => rfl)
        (U1 m c) (U2 m hO c) ((pdats m hO 0 c).arrAt · (cfgM m hO).N) (hF0 m hO c) (hrest0 m hO c)
    rw [Pipeline.unscopedBufs_held, rest0_split] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- The scoring call: entered from every unscoped buffer at W3, left at W4. -/
def reg1 : Pipeline.RegionSeg (pcfgs (F := F)) (adm m hO) (pdats m hO) () defs₀ 𝒱₀ L lv 1 where
  win := winFacts1.to₀
  block_pos := block_pos1
  stage_whole := stage_whole1
  K := PEmpty
  osem k := k.elim
  ho := Pipeline.OwnSemFacts.none _
  hbody c := (body_obligation1 (U3 m hO) c).loose
  hwaits := Pipeline.hwaits_of_owed_zero _ _ _ _ L lv 1 fun _ _ => rfl
  pre c := iprop(StableHlo.held (c : Thread nD τ) (Pipeline.ucRefs τ sig) (W3 m hO c) ∗ R c)
  post c := iprop(Tₙ m hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m hO c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (U3 m hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (U3 m hO c) (U4 m hO c) ((pdats m hO 1 c).arrAt · cfg1.N) (hF1 m hO c) (hrest1 m hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m hO)),
    .region (reg1 m hO) ]

/-- The program is the run of its segments. -/
theorem main_run (c : Dev nD) : main (F := F) c = Pipeline.Seg.run (segs m hO) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and in every final state each unscoped buffer of each core holds the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hO c b)
    (hfin := fun c s' => by
      iintro ⟨⟨Hh, -⟩, HSI⟩
      unfold StableHlo.held
      imodintro
      iapply (pointsTo_read_all (Pipeline.ucRefs τ sig) (fun b => (((c : Thread nD τ)).1, b)) (W4 m hO c) s')
      isplitl [Hh] <;> iassumption)
    (hQ := fun s h c => h c)

end Cert.Kernel.Hand

end
-- ==== Proof.KFrame.lean ====
/-
  What the run's last contents say of the program's arguments and of its result: no host operation and no call writes
  an argument (the scoring call reads the memory matrix through an input window, which leaves its array as found; every
  other argument bypasses both calls), so each argument ends as launched; the result buffer ends at what the scoring
  call's write-backs fold to.
-/
import proofs.«428979_j90804198572513_1_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- A buffer that neither host stretch writes and that is no array of either call holds its launch contents at the end. -/
theorem W4_bypass (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m hO c (Proc.devRef .tc r) = m ((c : Thread nD τ).loc r) :=
  calc W4 m hO c (Proc.devRef .tc r)
    _ = W3 m hO c (Proc.devRef .tc r) := W4_of_ne m hO c r ha1
    _ = W2 m hO c (Proc.devRef .tc r) := StableHlo.after_of_writes_sub hostOps1 _ hostOps1_writes h1
    _ = W1 m c (Proc.devRef .tc r) := W2_of_ne m hO c r ha0
    _ = W0 m c (Proc.devRef .tc r) := StableHlo.after_of_writes_sub hostOps0 _ hostOps0_writes h0
    _ = m ((c : Thread nD τ).loc r) := rfl

theorem W4_main_arg0 (c : Dev nD) : W4 m hO c (Proc.devRef .tc main_arg0) = m ((c : Thread nD τ).loc main_arg0) :=
  W4_bypass m hO c main_arg0 (by decide) (by decide) (by decide) (by decide)
theorem W4_main_arg1 (c : Dev nD) : W4 m hO c (Proc.devRef .tc main_arg1) = m ((c : Thread nD τ).loc main_arg1) :=
  W4_bypass m hO c main_arg1 (by decide) (by decide) (by decide) (by decide)
theorem W4_main_arg2 (c : Dev nD) : W4 m hO c (Proc.devRef .tc main_arg2) = m ((c : Thread nD τ).loc main_arg2) :=
  W4_bypass m hO c main_arg2 (by decide) (by decide) (by decide) (by decide)
theorem W4_main_arg3 (c : Dev nD) : W4 m hO c (Proc.devRef .tc main_arg3) = m ((c : Thread nD τ).loc main_arg3) :=
  W4_bypass m hO c main_arg3 (by decide) (by decide) (by decide) (by decide)
theorem W4_main_arg4 (c : Dev nD) : W4 m hO c (Proc.devRef .tc main_arg4) = m ((c : Thread nD τ).loc main_arg4) :=
  W4_bypass m hO c main_arg4 (by decide) (by decide) (by decide) (by decide)

/-- The memory matrix is the scoring call's fourth input window: the call leaves it as it found it. -/
theorem W3_main_arg5 (c : Dev nD) : W3 m hO c (Proc.devRef .tc main_arg5) = m ((c : Thread nD τ).loc main_arg5) :=
  calc W3 m hO c (Proc.devRef .tc main_arg5)
    _ = W2 m hO c (Proc.devRef .tc main_arg5) := StableHlo.after_of_writes_sub hostOps1 _ hostOps1_writes (by decide)
    _ = W1 m c (Proc.devRef .tc main_arg5) := W2_of_ne m hO c main_arg5 (by decide)
    _ = W0 m c (Proc.devRef .tc main_arg5) := StableHlo.after_of_writes_sub hostOps0 _ hostOps0_writes (by decide)
    _ = m ((c : Thread nD τ).loc main_arg5) := rfl
theorem W4_main_arg5 (c : Dev nD) : W4 m hO c (Proc.devRef .tc main_arg5) = m ((c : Thread nD τ).loc main_arg5) :=
  ((W4_arr m hO c 3).trans (((dat1 (U3 m hO) c).arrAt_in 3 rfl _).trans (A_eq1 (U3 m hO) c 3))).trans (W3_main_arg5 m hO c)

/-- The result buffer at the end. -/
theorem W4_main_v6 (c : Dev nD) : W4 m hO c (Proc.devRef .tc main_v6) = (dat1 (U3 m hO) c).arrAt 4 cfg1.N :=
  W4_arr m hO c 4

/-- THE RUN with the result named: termination, the result at the scoring call's folded write-backs, the arguments
    as launched. -/
theorem run_value : θ_run defs (onTc (τ := τ) (main (F := F))) ⟨m, fun _ => 0, ρ⟩ (fun r => ∀ c : Dev nD,
      r.2.mem ((c.tc : Thread nD τ).loc main_v6) = (dat1 (U3 m hO) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (W4_main_v6 m hO c),
     (h c _ (mem_uc main_arg0 (by decide))).trans (W4_main_arg0 m hO c),
     (h c _ (mem_uc main_arg1 (by decide))).trans (W4_main_arg1 m hO c),
     (h c _ (mem_uc main_arg2 (by decide))).trans (W4_main_arg2 m hO c),
     (h c _ (mem_uc main_arg3 (by decide))).trans (W4_main_arg3 m hO c),
     (h c _ (mem_uc main_arg4 (by decide))).trans (W4_main_arg4 m hO c),
     (h c _ (mem_uc main_arg5 (by decide))).trans (W4_main_arg5 m hO c)⟩) (run_main m ρ hO)

include hO in
/-- THE FRAME: termination, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ hO)

end Cert.Kernel.Hand

end
-- ==== Proof.KOk.lean ====
/-
  The gather call's side condition from the ids' range: an id below 1000000 names a row block inside its table.
-/
import proofs.«428979_j90804198572513_1_alg».proof.Proof.KTables

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- A one-row block at row w of the [1000000, 1, 32] table lies inside it when w is below 1000000. -/
theorem block_inb (w : Nat) (hw : w < 1000000) :
    ∀ a, ((![w, 0, 0] : Fin 3 → Nat) a + 1) * S1x1x32.size a ≤ S1000000x1x32.size a := by
  intro a
  fin_cases a <;> simp [S1x1x32, S1000000x1x32] <;> omega

/-- Every table-indexed window's block lies inside its table when every id is below 1000000. -/
theorem ok_of_ids (h0 : ∀ i : S16384.Idx, (tbl m 0 i).toNat < 1000000) (h1 : ∀ i : S16384.Idx, (tbl m 1 i).toNat < 1000000) : Ok m := by
  refine ⟨fun i => ?_, fun i => ?_⟩
  · -- the index map reads one word of table 0, whatever index it reads it at
    obtain ⟨w, hw, e⟩ : ∃ w : BitVec 32, w.toNat < 1000000 ∧
        cc0_transform_0 k0_off1_inb numel1_S1 (tbl m) i = ![w.toNat, 0, 0] := ⟨_, h0 _, rfl⟩
    refine ⟨fun a => ?_, Or.inl rfl⟩
    rw [e]
    exact block_inb _ hw a
  · obtain ⟨w, hw, e⟩ : ∃ w : BitVec 32, w.toNat < 1000000 ∧
        cc0_transform_1 k0_off1_inb numel1_S1 (tbl m) i = ![w.toNat, 0, 0] := ⟨_, h1 _, rfl⟩
    refine ⟨fun a => ?_, Or.inl rfl⟩
    rw [e]
    exact block_inb _ hw a

end Cert.Kernel.Hand

end
-- ==== Proof.KIGather.lean ====
/-
  The gather call's body at one grid point: it copies the user row it was handed into the user output block and the
  item row into the item output block, whole block to whole block, and touches nothing else (the two id tables are
  arguments it never reads).
-/
import proofs.«428979_j90804198572513_1_alg».proof.Proof.Gen.KernelIdeal.Skeleton
import proofs.«428979_j90804198572513_1_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body loads and stores through: the whole 1 × 1 × 32 block. -/
abbrev rowRect : Rect S1x1x32 := Rect.unit (s := S1x1x32) ![0, 0, 0] S1x1x32.size inb_S1x1x32_S1x1x32_0_0_0

/-- What the body leaves in the user output block, from the user row block. -/
def userOut (x : Vec F S1x1x32 .f32) : Vec F S1x1x32 .f32 := View.canon [⟨rowRect, k0_pay1 (View.ld x rowRect)⟩]
/-- What it leaves in the item output block, from the item row block. -/
def itemOut (x : Vec F S1x1x32 .f32) : Vec F S1x1x32 .f32 := View.canon [⟨rowRect, k0_pay2 (View.ld x rowRect)⟩]

/-- The offsets of the rectangle are all zero. -/
theorem rowRect_zero : (![0, 0, 0] : Fin 3 → Nat) = fun _ => 0 := funext fun a => by fin_cases a <;> rfl

/-- The copy is the identity on the block. -/
theorem userOut_eq (x : Vec F S1x1x32 .f32) : userOut x = x := by
  unfold userOut
  rw [View.canon_unit_zero rowRect_zero]
  rw [View.ld_unit_zero (S := S1x1x32) rowRect_zero]
  exact shapeCast_self _ _
theorem itemOut_eq (x : Vec F S1x1x32 .f32) : itemOut x = x := by
  unfold itemOut
  rw [View.canon_unit_zero rowRect_zero]
  rw [View.ld_unit_zero (S := S1x1x32) rowRect_zero]
  exact shapeCast_self _ _

/-- One store through the whole-block rectangle covers the block. -/
theorem cover_row (p : Vec F S1x1x32 .f32) (y : S1x1x32.Idx) :
    ∃ pc ∈ ([⟨rowRect, p⟩] : List (View.Piece (Elt F) S1x1x32 .f32)), y ∈ pc.1.set :=
  View.cover_of_tiled [⟨rowRect, p⟩] S1x1x32.size (by rfl) y

set_option maxHeartbeats 1000000 in
/-- The body on whole staging memrefs: the two row blocks are read and kept, each output block ends as the copy. -/
theorem sound_gather (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x32 .f32) (harg3 : arg3.IsWhole) (arg4 : Memref sig .tc .vmem S1x1x32 .f32) (harg4 : arg4.IsWhole)
    (arg5 : Memref sig .tc .vmem S1x1x32 .f32) (harg5 : arg5.IsWhole) (arg6 : Memref sig .tc .vmem S1x1x32 .f32) (harg6 : arg6.IsWhole)
    (x0 x1 : Vec F S1x1x32 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (userOut x0) ∗ owns (c : Thread nD τ) arg6 fullShare (itemOut x1)) -∗ K ⟨⟩))
      ⊢ wp frame (wpE (defs₀ (F := F)) Variants.none c none) E
          (cc0__gather_kernel i arg1 harg1 arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_row _)
  iexists _; isplitr
  swap; · iexact H3
  ipureintro
  exact View.read_writes_eq_canon _ _ _ (cover_row _)

end Cert.KernelIdeal.Hand

end
-- ==== Proof.KITables.lean ====
/-
  The two index tables of the gather call (user ids, item ids), as the launch memory holds them on the program's one
  device, and the condition the gather's index maps need of them: every id names a row of its 1000000-row table.
-/
import proofs.«428979_j90804198572513_1_alg».proof.Proof.Gen.KernelIdeal.Regions

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The id tables' contents: table 0 the user ids, table 1 the item ids. -/
def tbl : pre0.Contents (Elt F) := fun j => m (((0 : Dev nD) : Thread nD τ).loc (pre0.ref j))

/-- Every row block the two table-indexed windows fetch lies inside its table. -/
abbrev Ok : Prop := ok0 (F := F) (tbl m)

end Cert.KernelIdeal.Hand

end
-- ==== Proof.KIRegion0.lean ====
/-
  The gather call as a pipeline region whose two input windows are indexed through the id tables, entered from any
  contents V of the core's buffers, at the tables' contents as the launch memory holds them (under the condition that
  every id names a row). Point t fetches row user_ids[t] of the user table and row item_ids[t] of the item table, and
  writes them back as row t of the two gathered matrices.
-/
import proofs.«428979_j90804198572513_1_alg».proof.Proof.KIGather
import proofs.«428979_j90804198572513_1_alg».proof.Proof.KITables
import proofs.«428979_j90804198572513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m)
variable (V : (c : Dev nD) → (b : Ref sig .tc) → Buf (Elt F) ((c : Thread nD τ).loc b))

/-- The tables' contents as admissible contents, and the gather pipeline at them. -/
abbrev adm0 : (pcfg0 (F := F)).Adm := ⟨tbl m, hO⟩
abbrev cfgM : Pipeline.Cfg sig Λ₀ := cfg0 (adm0 m hO)

/-- Window w's block at point t, read off its array as the region finds it; for the two table-indexed windows the
    block index is the point's id word. -/
def iblk0 (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V c (Pipeline.arrRef spec0 w))

/-- An input window's current staging buffer holds its block at every point. -/
theorem before0_0_of {c : Dev nD} (dat : Dat τ (Elt F) Unit ℕ (UR sig nD τ) ℕ (cfgM m hO) c) (hA : dat.A 0 = V c (Pipeline.arrRef spec0 0))
    (hafter : ∀ t, dat.after 0 t = iblk0 m hO V c 0 t) (t : Fin (cfgM m hO).N) (d) : dat.before 0 t d = iblk0 m hO V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfgM m hO) c) (hA : dat.A 1 = V c (Pipeline.arrRef spec0 1))
    (hafter : ∀ t, dat.after 1 t = iblk0 m hO V c 1 t) (t : Fin (cfgM m hO).N) (d) : dat.before 1 t d = iblk0 m hO V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, as the pipeline passes it to the body, and its wholeness. -/
abbrev ms0_0 (t : Fin (cfgM m hO).N) : Memref sig .tc .vmem S1x1x32 .f32 := spec0_0.stage ((cfgM m hO).slots t 0)
abbrev hs0_0 (t : Fin (cfgM m hO).N) : (ms0_0 m hO t).IsWhole := hstage0_0 (((cfgM m hO).slots t 0).cast nbuf0_0)
abbrev ms0_1 (t : Fin (cfgM m hO).N) : Memref sig .tc .vmem S1x1x32 .f32 := spec0_1.stage ((cfgM m hO).slots t 1)
abbrev hs0_1 (t : Fin (cfgM m hO).N) : (ms0_1 m hO t).IsWhole := hstage0_1 (((cfgM m hO).slots t 1).cast nbuf0_1)
abbrev ms0_2 (t : Fin (cfgM m hO).N) : Memref sig .tc .vmem S1x1x32 .f32 := spec0_2.stage ((cfgM m hO).slots t 2)
abbrev hs0_2 (t : Fin (cfgM m hO).N) : (ms0_2 m hO t).IsWhole := hstage0_2 (((cfgM m hO).slots t 2).cast nbuf0_2)
abbrev ms0_3 (t : Fin (cfgM m hO).N) : Memref sig .tc .vmem S1x1x32 .f32 := spec0_3.stage ((cfgM m hO).slots t 3)
abbrev hs0_3 (t : Fin (cfgM m hO).N) : (ms0_3 m hO t).IsWhole := hstage0_3 (((cfgM m hO).slots t 3).cast nbuf0_3)

/-- The body at point t, on what the pipeline calls it with: the two tables whole, then the four staging memrefs. -/
abbrev bodyAt0 (t : Fin (cfgM m hO).N) : Prog (TpuEff nD τ sig (Elt F) Λ₀ .tc) PUnit :=
  cc0__gather_kernel (grid0.coords t) (Memref.whole main_arg0) (Memref.isWhole_whole _) (Memref.whole main_arg1) (Memref.isWhole_whole _)
    (ms0_0 m hO t) (hs0_0 m hO t) (ms0_1 m hO t) (hs0_1 m hO t) (ms0_2 m hO t) (hs0_2 m hO t) (ms0_3 m hO t) (hs0_3 m hO t)

/-- The tables held whole on core c at their launch contents: what rides in the region's invariant, untouched. -/
abbrev tablesHeld (c : Dev nD) : sProp 𝕄 :=
  Pipeline.prefHeld (Ix := Unit) (Name := ℕ) (U := UR sig nD τ) (Lvl := ℕ) pre0 c (fun _ => fullShare) (tbl m)

/-- The region's proof data: the arrays as found; after the body each row buffer at its block and each output buffer
    at the copy of its row block; the invariant the scratch, the generator register and the tables; nothing owed. -/
def dat0 (c : Dev nD) : Dat τ (Elt F) Unit ℕ (UR sig nD τ) ℕ (cfgM m hO) c where
  A w := V c (Pipeline.arrRef spec0 w)
  after w t := match w with
    | ⟨0, _⟩ => iblk0 m hO V c 0 t
    | ⟨1, _⟩ => iblk0 m hO V c 1 t
    | ⟨2, _⟩ => userOut (iblk0 m hO V c 0 t)
    | ⟨3, _⟩ => itemOut (iblk0 m hO V c 1 t)
  Φ _ := iprop(Pipeline.ΦA spec0 c ∗ tablesHeld m c)
  q _ := fullShare
  owed _ := 0

theorem A_eq0 (c : Dev nD) (w : Fin (cfgM m hO).W) : (dat0 m hO V c).A w = V c (Pipeline.arrRef spec0 w) := by dsimp only [dat0]
theorem after0_0 (c : Dev nD) (t : Fin (cfgM m hO).N) : (dat0 m hO V c).after 0 t = iblk0 m hO V c 0 t := by dsimp only [dat0]; rfl
theorem after0_1 (c : Dev nD) (t : Fin (cfgM m hO).N) : (dat0 m hO V c).after 1 t = iblk0 m hO V c 1 t := by dsimp only [dat0]; rfl
theorem after0_2 (c : Dev nD) (t : Fin (cfgM m hO).N) : (dat0 m hO V c).after 2 t = userOut (iblk0 m hO V c 0 t) := by dsimp only [dat0]; rfl
theorem after0_3 (c : Dev nD) (t : Fin (cfgM m hO).N) : (dat0 m hO V c).after 3 t = itemOut (iblk0 m hO V c 1 t) := by dsimp only [dat0]; rfl

theorem before0_0 (c : Dev nD) (t : Fin (cfgM m hO).N) (d) : (dat0 m hO V c).before 0 t d = iblk0 m hO V c 0 t :=
  before0_0_of m hO V (dat0 m hO V c) (A_eq0 m hO V c 0) (after0_0 m hO V c) t d
theorem before0_1 (c : Dev nD) (t : Fin (cfgM m hO).N) (d) : (dat0 m hO V c).before 1 t d = iblk0 m hO V c 1 t :=
  before0_1_of m hO V (dat0 m hO V c) (A_eq0 m hO V c 1) (after0_1 m hO V c) t d

/-- What the body is called with at point t, the windows one by one, -/
def bodyPre0 (c : Dev nD) (t : Fin (cfgM m hO).N) : sProp 𝕄 :=
  iprop((dat0 m hO V c).Φ t.castSucc ∗ (dat0 m hO V c).owesAt () t.castSucc
    ∗ (∃ d, owns (c : Thread nD τ) (ms0_0 m hO t) fullShare ((dat0 m hO V c).before 0 t d))
    ∗ (∃ d, owns (c : Thread nD τ) (ms0_1 m hO t) fullShare ((dat0 m hO V c).before 1 t d))
    ∗ (∃ d, owns (c : Thread nD τ) (ms0_2 m hO t) fullShare ((dat0 m hO V c).before 2 t d))
    ∗ (∃ d, owns (c : Thread nD τ) (ms0_3 m hO t) fullShare ((dat0 m hO V c).before 3 t d)))

/-- and what it returns. -/
def bodyPost0 (c : Dev nD) (t : Fin (cfgM m hO).N) : sProp 𝕄 :=
  iprop((dat0 m hO V c).Φ t.succ ∗ (dat0 m hO V c).owesAt () t.succ
    ∗ owns (c : Thread nD τ) (ms0_0 m hO t) fullShare ((dat0 m hO V c).after 0 t)
    ∗ owns (c : Thread nD τ) (ms0_1 m hO t) fullShare ((dat0 m hO V c).after 1 t)
    ∗ owns (c : Thread nD τ) (ms0_2 m hO t) fullShare ((dat0 m hO V c).after 2 t)
    ∗ owns (c : Thread nD τ) (ms0_3 m hO t) fullShare ((dat0 m hO V c).after 3 t))

/-- The body at any point: the two row buffers hold their blocks, so the copy's triple applies; the invariant (the
    tables in it) and the core's dues pass through unread. -/
theorem sound_body0 (c : Dev nD) (t : Fin (cfgM m hO).N) :
    bodyPre0 m hO V c t ⊢ wp frame (wpE (defs₀ (F := F)) Variants.none c none) Set.univ (bodyAt0 m hO t) (fun _ => bodyPost0 m hO V c t) := by
  unfold bodyPre0 bodyPost0 bodyAt0
  simp only [before0_0, before0_1]
  rw [show (dat0 m hO V c).Φ t.succ = (dat0 m hO V c).Φ t.castSucc from rfl,
    show (dat0 m hO V c).owesAt () t.succ = (dat0 m hO V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_gather c Set.univ _ _ _ _ _ _ _ _ _ _ _ _ _ (iblk0 m hO V c 0 t) (iblk0 m hO V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) m hO V c) (defs₀ (F := F)) Variants.none () Set.univ := fun t => by
  rw [bigSep_W0, bigSep_W0]
  exact sound_body0 m hO V c t

end Cert.KernelIdeal.Hand

end
-- ==== Proof.KICompute.lean ====
/-
  The scoring call's body at one grid point: from a block of 4096 gathered user rows, a block of 4096 gathered item
  rows, the transposed attention matrix and the memory matrix (all read and kept) it stores the 4096 scores of the block.
-/
import proofs.«428979_j90804198572513_1_alg».proof.Proof.Gen.KernelIdeal.Skeleton
import proofs.«428979_j90804198572513_1_alg».proof.Proof.Gen.KernelIdeal.Launch
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rowsRect : Rect S4096x32 := Rect.unit (s := S4096x32) ![0, 0] S4096x32.size inb_S4096x32_S4096x32_0_0
abbrev attRect : Rect S32x10 := Rect.unit (s := S32x10) ![0, 0] S32x10.size inb_S32x10_S32x10_0_0
abbrev memRect : Rect S10x32 := Rect.unit (s := S10x32) ![0, 0] S10x32.size inb_S10x32_S10x32_0_0
abbrev outRect : Rect S4096 := Rect.unit (s := S4096) ![0] S4096.size inb_S4096_S4096_0

/-- What the body leaves in the score block, from the four input blocks: its one store, over the body's arithmetic. -/
def scoreOut (x0 x1 : Vec F S4096x32 .f32) (x2 : Vec F S32x10 .f32) (x3 : Vec F S10x32 .f32) : Vec F S4096 .f32 :=
  View.canon [⟨outRect, k1_pay1 (k1_pay2 (View.ld x0 rowsRect)) (k1_pay3 (View.ld x1 rowsRect)) (View.ld x3 memRect)
    (k1_pay4 (View.ld x0 rowsRect) (View.ld x1 rowsRect) (View.ld x2 attRect))
    (k1_pay5 (View.ld x0 rowsRect) (View.ld x1 rowsRect) (View.ld x2 attRect))⟩]

/-- The one store covers the score block: its rectangle is the whole block. -/
theorem cover_out (p0 : Vec F S4096 .f32) (y : S4096.Idx) :
    ∃ pc ∈ ([⟨outRect, p0⟩] : List (View.Piece (Elt F) S4096 .f32)), y ∈ pc.1.set :=
  View.cover_of_tiled [⟨outRect, p0⟩] S4096.size (by rfl) y

set_option maxHeartbeats 1000000 in
/-- The body on whole staging memrefs: the four input blocks are read and kept, the score block ends at `scoreOut`. -/
theorem sound_compute (c : Dev nD) (E : Set ℕ) (i : grid1.Coords)
    (arg1 : Memref sig .tc .vmem S4096x32 .f32) (harg1 : arg1.IsWhole) (arg2 : Memref sig .tc .vmem S4096x32 .f32) (harg2 : arg2.IsWhole)
    (arg3 : Memref sig .tc .vmem S32x10 .f32) (harg3 : arg3.IsWhole) (arg4 : Memref sig .tc .vmem S10x32 .f32) (harg4 : arg4.IsWhole)
    (arg5 : Memref sig .tc .vmem S4096 .f32) (harg5 : arg5.IsWhole)
    (x0 x1 : Vec F S4096x32 .f32) (x2 : Vec F S32x10 .f32) (x3 : Vec F S10x32 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (scoreOut x0 x1 x2 x3)) -∗ K ⟨⟩))
      ⊢ wp frame (wpE (defs₀ (F := F)) Variants.none c none) E
          (cc1__compute_kernel i arg1 harg1 arg2 harg2 arg3 harg3 arg4 harg4 arg5 harg5) K := by
  simp only [cc1__compute_kernel_eq_skeleton]; unfold cc1__compute_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Hand

end
-- ==== Proof.KIRegion1.lean ====
/-
  The scoring call as a pipeline region, entered from any contents V of the core's buffers: what each window's block is
  at a grid point, what the body leaves in each staging buffer, and the body's obligation at every point. The region
  runs 4 points; point t reads rows 4096 t … 4096 t + 4095 of the two gathered matrices, and the two small matrices whole.
-/
import proofs.«428979_j90804198572513_1_alg».proof.Proof.KICompute
import proofs.«428979_j90804198572513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or kept from
    an earlier point at the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The region's proof data: the arrays as found; after the body each input buffer at its block and the score buffer
    at the body's result of the four input blocks; the scratch-and-generator invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => scoreOut (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = scoreOut (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_compute c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program run: two host reshapes, the gather call, two host reshapes and a transpose, the scoring call.
  The core's buffer contents are followed from the launch through the four items (each host stretch applies its
  operations, each call leaves its result arrays at what its write-backs fold to and every other buffer as it found it),
  each call is given as a region over the thread state "every unscoped buffer at the current contents, the generator
  register somewhere, nothing owed", and the launch theorem for a list of segments gives: every weakly fair execution
  terminates, and at the end every unscoped buffer holds the last contents. The id tables sit in scalar memory among
  the unscoped buffers; the gather region takes them out at entry, keeps them whole in its invariant, and puts them back.
-/
import proofs.«428979_j90804198572513_1_alg».proof.Proof.KIRegion0
import proofs.«428979_j90804198572513_1_alg».proof.Proof.KIRegion1
import proofs.«428979_j90804198572513_1_alg».proof.Proof.Gen.KernelIdeal.Regions
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-! ## The buffer contents at each boundary -/

/-- At launch; after the first host stretch (the gather call's entry). -/
abbrev W0 (c : Dev nD) : Valuation τ sig (Elt F) := fun b => m (c, b)
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- At the gather call's exit: its arrays at what the pipeline leaves, every other buffer as entered. -/
def W2 (c : Dev nD) : Valuation τ sig (Elt F) :=
  Pipeline.withArrays spec0 c (W1 m c) fun w => (dat0 m hO (U1 m) c).arrAt w (cfgM m hO).N
theorem W2_arr (c : Dev nD) (w : Fin (cfgM m hO).W) :
    W2 m hO c (Proc.devRef .tc (Pipeline.arrRef spec0 w)) = (dat0 m hO (U1 m) c).arrAt w (cfgM m hO).N := by
  unfold W2; exact Pipeline.withArrays_arr spec0 winFacts0.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m hO c b
theorem hF0 (c : Dev nD) (w : Fin (cfgM m hO).W) : (dat0 m hO (U1 m) c).arrAt w (cfgM m hO).N = U2 m hO c (Pipeline.arrRef spec0 w) :=
  (W2_arr m hO c w).symm
theorem hrest0 (c : Dev nD) : ∀ b, b ∉ Finset.univ.image (Pipeline.arrRef spec0) → U2 m hO c b = U1 m c b :=
  fun b hb => W2_of_ne m hO c b fun w e => hb (Finset.mem_image.mpr ⟨w, Finset.mem_univ _, e⟩)

/-- After the second host stretch (the scoring call's entry); at the scoring call's exit. -/
abbrev W3 (c : Dev nD) : Valuation τ sig (Elt F) := StableHlo.after hostOps1 (W2 m hO c)
abbrev U3 : (c : Dev nD) → (b : Ref sig .tc) → Buf (Elt F) ((c : Thread nD τ).loc b) := fun c b => W3 m hO c b
def W4 (c : Dev nD) : Valuation τ sig (Elt F) :=
  Pipeline.withArrays spec1 c (W3 m hO c) fun w => (dat1 (U3 m hO) c).arrAt w cfg1.N
theorem W4_arr (c : Dev nD) (w : Fin cfg1.W) :
    W4 m hO c (Proc.devRef .tc (Pipeline.arrRef spec1 w)) = (dat1 (U3 m hO) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb
abbrev U4 : (c : Dev nD) → (b : Ref sig .tc) → Buf (Elt F) ((c : Thread nD τ).loc b) := fun c b => W4 m hO c b
theorem hF1 (c : Dev nD) (w : Fin cfg1.W) : (dat1 (U3 m hO) c).arrAt w cfg1.N = U4 m hO c (Pipeline.arrRef spec1 w) :=
  (W4_arr m hO c w).symm
theorem hrest1 (c : Dev nD) : ∀ b, b ∉ Finset.univ.image (Pipeline.arrRef spec1) → U4 m hO c b = U3 m hO c b :=
  fun b hb => W4_of_ne m hO c b fun w e => hb (Finset.mem_image.mpr ⟨w, Finset.mem_univ _, e⟩)

/-- The first host stretch writes neither id table: at the gather call's entry they hold their launch contents. -/
theorem U1_pre (c : Dev nD) (k : Fin 2) : U1 m c (pre0.ref k) = tbl m k := by
  obtain rfl : c = 0 := Subsingleton.elim _ _
  fin_cases k
  · exact V1_of m 0 main_arg0 (by decide)
  · exact V1_of m 0 main_arg1 (by decide)

/-! ## The proof data family and the thread state -/

/-- The tables' admissible contents, call by call: the gather call's are the id tables, the scoring call has none. -/
abbrev adm : (p : Fin 2) → (pcfgs (F := F) p).Adm
  | ⟨0, _⟩ => adm0 m hO
  | ⟨1, _⟩ => Pipeline.Cfg.toPCfg_adm (Val := Elt F) cfg1
  | ⟨_ + 2, h⟩ => absurd h (Nat.not_lt.2 (Nat.le_add_left _ _))

/-- Every pipeline's proof data, each at its region's entry contents. -/
def pdats : (p : Fin 2) → (c : Dev nD) → Dat τ (Elt F) Unit ℕ (UR sig nD τ) ℕ (Pipeline.pin (pcfgs (F := F)) (adm m hO) p) c
  | ⟨0, _⟩ => fun c => dat0 m hO (U1 m) c
  | ⟨1, _⟩ => fun c => dat1 (U3 m hO) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers from contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues. -/
abbrev Tₙ (c : Dev nD) : sProp 𝕄 := iprop(StableHlo.held (c : Thread nD τ) (Pipeline.ucRefs τ sig) (W4 m hO c) ∗ ∃ r, prngReg c r)

/-- The unscoped buffers that are no array of the gather call are its two tables at their launch contents and the rest. -/
theorem rest0_split (c : Dev nD) :
    (Pipeline.unscopedRest (Ix := Unit) (Name := ℕ) (U := UR sig nD τ) (Lvl := ℕ) spec0 c (U1 m c) : sProp 𝕄)
      = iprop(tablesHeld m c ∗ Pipeline.unscopedRestP (Ix := Unit) (Name := ℕ) (U := UR sig nD τ) (Lvl := ℕ) pre0 spec0 c (U1 m c)) := by
  rw [Pipeline.unscopedRest_split preFacts0 c (U1 m c), show (fun k => U1 m c (pre0.ref k)) = tbl m from funext fun k => U1_pre m c k]

/-! ## The two calls as regions -/

set_option backward.isDefEq.respectTransparency.types false in
/-- The gather call: entered from every unscoped buffer at W1, left at W2. -/
def reg0 : Pipeline.RegionSeg (pcfgs (F := F)) (adm m hO) (pdats m hO) () defs₀ 𝒱₀ L lv 0 where
  win := winFacts0.to₀
  block_pos := block_pos0
  stage_whole := stage_whole0
  K := PEmpty
  osem k := k.elim
  ho := Pipeline.OwnSemFacts.none _
  hbody c := (body_obligation0 m hO (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hO c) ∗ R c)
  X c := iprop(∃ r, prngReg c r)
  Y c := iprop((∃ r, prngReg c r) ∗ tablesHeld m c)
  Z c := Pipeline.unscopedRestP (Ix := Unit) (Name := ℕ) (U := UR sig nD τ) (Lvl := ℕ) pre0 spec0 c (U1 m c)
  hentry c := by
    rw [Pipeline.ownSems0_none]
    have hsplit : (unscopedBufs c (U1 m c) : sProp 𝕄)
        ⊢ iprop((pdats m hO 0 c).arrays ((pdats m hO 0 c).arrAt · 0)
            ∗ Pipeline.unscopedRest (Ix := Unit) (Name := ℕ) (U := UR sig nD τ) (Lvl := ℕ) spec0 c (U1 m c)) :=
      Pipeline.arrays_of_unscopedBufs (p := 0) (pcfgs (F := F)) (adm m hO) (pdats m hO) winFacts0 arr_whole0 c
        ((pdats m hO 0 c).share_full fun _ => rfl) (U1 m c) fun _ => rfl
    rw [Pipeline.unscopedBufs_held, rest0_split] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = iprop(Pipeline.ΦA spec0 c ∗ tablesHeld m c) from rfl]; unfold Pipeline.ΦA
    iintro ⟨Hp, Ht, Hr⟩
    isplitr [Ht]
    · isplitl [Hr]; · iexact Hr
      iexact Hp
    iexact Ht
  hout c := by
    rw [Pipeline.ownSems0_none, show (pdats m hO 0 c).Φ (Fin.last _) = iprop(Pipeline.ΦA spec0 c ∗ tablesHeld m c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m hO 0 c).arrays ((pdats m hO 0 c).arrAt · (cfgM m hO).N)
          ∗ Pipeline.unscopedRest (Ix := Unit) (Name := ℕ) (U := UR sig nD τ) (Lvl := ℕ) spec0 c (U1 m c))
        ⊢ (unscopedBufs c (U2 m hO c) : sProp 𝕄) :=
      Pipeline.unscopedBufs_of_arrays (p := 0) (pcfgs (F := F)) (adm m hO) (Ix := Unit) (Name := ℕ) (U := UR sig nD τ) (Lvl := ℕ)
        winFacts0 arr_whole0 c (pdats m hO) ((pdats m hO 0 c).share_full fun _ => rfl)
        (U1 m c) (U2 m hO c) ((pdats m hO 0 c).arrAt · (cfgM m hO).N) (hF0 m hO c) (hrest0 m hO c)
    rw [Pipeline.unscopedBufs_held, rest0_split] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- The scoring call: entered from every unscoped buffer at W3, left at W4. -/
def reg1 : Pipeline.RegionSeg (pcfgs (F := F)) (adm m hO) (pdats m hO) () defs₀ 𝒱₀ L lv 1 where
  win := winFacts1.to₀
  block_pos := block_pos1
  stage_whole := stage_whole1
  K := PEmpty
  osem k := k.elim
  ho := Pipeline.OwnSemFacts.none _
  hbody c := (body_obligation1 (U3 m hO) c).loose
  hwaits := Pipeline.hwaits_of_owed_zero _ _ _ _ L lv 1 fun _ _ => rfl
  pre c := iprop(StableHlo.held (c : Thread nD τ) (Pipeline.ucRefs τ sig) (W3 m hO c) ∗ R c)
  post c := iprop(Tₙ m hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m hO c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (U3 m hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (U3 m hO c) (U4 m hO c) ((pdats m hO 1 c).arrAt · cfg1.N) (hF1 m hO c) (hrest1 m hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m hO)),
    .region (reg1 m hO) ]

/-- The program is the run of its segments. -/
theorem main_run (c : Dev nD) : main (F := F) c = Pipeline.Seg.run (segs m hO) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and in every final state each unscoped buffer of each core holds the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hO c b)
    (hfin := fun c s' => by
      iintro ⟨⟨Hh, -⟩, HSI⟩
      unfold StableHlo.held
      imodintro
      iapply (pointsTo_read_all (Pipeline.ucRefs τ sig) (fun b => (((c : Thread nD τ)).1, b)) (W4 m hO c) s')
      isplitl [Hh] <;> iassumption)
    (hQ := fun s h c => h c)

end Cert.KernelIdeal.Hand

end
-- ==== Proof.KIFrame.lean ====
/-
  What the run's last contents say of the program's arguments and of its result: no host operation and no call writes
  an argument (the scoring call reads the memory matrix through an input window, which leaves its array as found; every
  other argument bypasses both calls), so each argument ends as launched; the result buffer ends at what the scoring
  call's write-backs fold to.
-/
import proofs.«428979_j90804198572513_1_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- A buffer that neither host stretch writes and that is no array of either call holds its launch contents at the end. -/
theorem W4_bypass (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m hO c (Proc.devRef .tc r) = m ((c : Thread nD τ).loc r) :=
  calc W4 m hO c (Proc.devRef .tc r)
    _ = W3 m hO c (Proc.devRef .tc r) := W4_of_ne m hO c r ha1
    _ = W2 m hO c (Proc.devRef .tc r) := StableHlo.after_of_writes_sub hostOps1 _ hostOps1_writes h1
    _ = W1 m c (Proc.devRef .tc r) := W2_of_ne m hO c r ha0
    _ = W0 m c (Proc.devRef .tc r) := StableHlo.after_of_writes_sub hostOps0 _ hostOps0_writes h0
    _ = m ((c : Thread nD τ).loc r) := rfl

theorem W4_main_arg0 (c : Dev nD) : W4 m hO c (Proc.devRef .tc main_arg0) = m ((c : Thread nD τ).loc main_arg0) :=
  W4_bypass m hO c main_arg0 (by decide) (by decide) (by decide) (by decide)
theorem W4_main_arg1 (c : Dev nD) : W4 m hO c (Proc.devRef .tc main_arg1) = m ((c : Thread nD τ).loc main_arg1) :=
  W4_bypass m hO c main_arg1 (by decide) (by decide) (by decide) (by decide)
theorem W4_main_arg2 (c : Dev nD) : W4 m hO c (Proc.devRef .tc main_arg2) = m ((c : Thread nD τ).loc main_arg2) :=
  W4_bypass m hO c main_arg2 (by decide) (by decide) (by decide) (by decide)
theorem W4_main_arg3 (c : Dev nD) : W4 m hO c (Proc.devRef .tc main_arg3) = m ((c : Thread nD τ).loc main_arg3) :=
  W4_bypass m hO c main_arg3 (by decide) (by decide) (by decide) (by decide)
theorem W4_main_arg4 (c : Dev nD) : W4 m hO c (Proc.devRef .tc main_arg4) = m ((c : Thread nD τ).loc main_arg4) :=
  W4_bypass m hO c main_arg4 (by decide) (by decide) (by decide) (by decide)

/-- The memory matrix is the scoring call's fourth input window: the call leaves it as it found it. -/
theorem W3_main_arg5 (c : Dev nD) : W3 m hO c (Proc.devRef .tc main_arg5) = m ((c : Thread nD τ).loc main_arg5) :=
  calc W3 m hO c (Proc.devRef .tc main_arg5)
    _ = W2 m hO c (Proc.devRef .tc main_arg5) := StableHlo.after_of_writes_sub hostOps1 _ hostOps1_writes (by decide)
    _ = W1 m c (Proc.devRef .tc main_arg5) := W2_of_ne m hO c main_arg5 (by decide)
    _ = W0 m c (Proc.devRef .tc main_arg5) := StableHlo.after_of_writes_sub hostOps0 _ hostOps0_writes (by decide)
    _ = m ((c : Thread nD τ).loc main_arg5) := rfl
theorem W4_main_arg5 (c : Dev nD) : W4 m hO c (Proc.devRef .tc main_arg5) = m ((c : Thread nD τ).loc main_arg5) :=
  ((W4_arr m hO c 3).trans (((dat1 (U3 m hO) c).arrAt_in 3 rfl _).trans (A_eq1 (U3 m hO) c 3))).trans (W3_main_arg5 m hO c)

/-- The result buffer at the end. -/
theorem W4_main_v6 (c : Dev nD) : W4 m hO c (Proc.devRef .tc main_v6) = (dat1 (U3 m hO) c).arrAt 4 cfg1.N :=
  W4_arr m hO c 4

/-- THE RUN with the result named: termination, the result at the scoring call's folded write-backs, the arguments
    as launched. -/
theorem run_value : θ_run defs (onTc (τ := τ) (main (F := F))) ⟨m, fun _ => 0, ρ⟩ (fun r => ∀ c : Dev nD,
      r.2.mem ((c.tc : Thread nD τ).loc main_v6) = (dat1 (U3 m hO) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (W4_main_v6 m hO c),
     (h c _ (mem_uc main_arg0 (by decide))).trans (W4_main_arg0 m hO c),
     (h c _ (mem_uc main_arg1 (by decide))).trans (W4_main_arg1 m hO c),
     (h c _ (mem_uc main_arg2 (by decide))).trans (W4_main_arg2 m hO c),
     (h c _ (mem_uc main_arg3 (by decide))).trans (W4_main_arg3 m hO c),
     (h c _ (mem_uc main_arg4 (by decide))).trans (W4_main_arg4 m hO c),
     (h c _ (mem_uc main_arg5 (by decide))).trans (W4_main_arg5 m hO c)⟩) (run_main m ρ hO)

include hO in
/-- THE FRAME: termination, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ hO)

end Cert.KernelIdeal.Hand

end
-- ==== Proof.KIOk.lean ====
/-
  The gather call's side condition from the ids' range: an id below 1000000 names a row block inside its table.
-/
import proofs.«428979_j90804198572513_1_alg».proof.Proof.KITables

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A one-row block at row w of the [1000000, 1, 32] table lies inside it when w is below 1000000. -/
theorem block_inb (w : Nat) (hw : w < 1000000) :
    ∀ a, ((![w, 0, 0] : Fin 3 → Nat) a + 1) * S1x1x32.size a ≤ S1000000x1x32.size a := by
  intro a
  fin_cases a <;> simp [S1x1x32, S1000000x1x32] <;> omega

/-- Every table-indexed window's block lies inside its table when every id is below 1000000. -/
theorem ok_of_ids (h0 : ∀ i : S16384.Idx, (tbl m 0 i).toNat < 1000000) (h1 : ∀ i : S16384.Idx, (tbl m 1 i).toNat < 1000000) : Ok m := by
  refine ⟨fun i => ?_, fun i => ?_⟩
  · -- the index map reads one word of table 0, whatever index it reads it at
    obtain ⟨w, hw, e⟩ : ∃ w : BitVec 32, w.toNat < 1000000 ∧
        cc0_transform_0 k0_off1_inb numel1_S1 (tbl m) i = ![w.toNat, 0, 0] := ⟨_, h0 _, rfl⟩
    refine ⟨fun a => ?_, Or.inl rfl⟩
    rw [e]
    exact block_inb _ hw a
  · obtain ⟨w, hw, e⟩ : ∃ w : BitVec 32, w.toNat < 1000000 ∧
        cc0_transform_1 k0_off1_inb numel1_S1 (tbl m) i = ![w.toNat, 0, 0] := ⟨_, h1 _, rfl⟩
    refine ⟨fun a => ?_, Or.inl rfl⟩
    rw [e]
    exact block_inb _ hw a

end Cert.KernelIdeal.Hand

end
-- ==== Proof.KIGatherValue.lean ====
/-
  Reading the gather's blocks, and the two reshapes around the gather, at an index.

  A 1 × 1 × 32 block whose offsets in an N × 1 × 32 array are (k, 0, 0) is row k of the array: the block's index y
  sits at (k, 0, y₂) (on each axis the array's coordinate is the offset plus 1 × the coordinate inside the block, and the
  block's two leading coordinates are 0). The reshape N × C → N × 1 × C read at (p, 0, d) is the operand at (p, d), and
  the reshape N × 1 × C → N × C read at (b, d) is the operand at (b, 0, d): both sides have the row-major position
  p · C + d.
-/
import proofs.«428979_j90804198572513_1_alg».proof.Proof.Gen.KernelIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## Indices of an array of rows with a unit middle axis -/

/-- The middle coordinate of an index of an N × 1 × C array is 0. -/
theorem mid_val_zero {N C : Nat} (i : (⟨3, ![N, 1, C]⟩ : Shape).Idx) : (i 1).val = 0 := by
  have h : (i 1).val < 1 := (i 1).isLt
  omega

/-- An index of an N × 1 × C array is its row and its column around the middle 0. -/
theorem eq_ix3_mid {N C : Nat} (i : (⟨3, ![N, 1, C]⟩ : Shape).Idx) : i = ix3 (i 0) (0 : Fin 1) (i 2) := by
  funext a
  match a with
  | ⟨0, _⟩ => rfl
  | ⟨1, _⟩ => exact Fin.ext (mid_val_zero i)
  | ⟨2, _⟩ => rfl

/-- The two leading coordinates of an index of a 1 × 1 × 32 block are 0. -/
theorem block_val_zero (y : S1x1x32.Idx) : (y 0).val = 0 ∧ (y 1).val = 0 := by
  have h0 : (y 0).val < 1 := (y 0).isLt
  have h1 : (y 1).val < 1 := (y 1).isLt
  omega

/-! ## A 1 × 1 × 32 block of an N × 1 × 32 array -/

/-- The block at offsets (k, 0, 0) places its index y at (k, 0, y₂). -/
theorem rowBlock_emb {N : Nat} (off : Fin 3 → Nat) (k : Fin N) (h0 : off 0 = k.val) (h1 : off 1 = 0) (h2 : off 2 = 0)
    (inb : ∀ a, off a + S1x1x32.size a ≤ (⟨3, ![N, 1, 32]⟩ : Shape).size a) (y : S1x1x32.Idx) :
    (Rect.unit (s := ⟨3, ![N, 1, 32]⟩) off S1x1x32.size inb).emb y = ix3 k (0 : Fin 1) (y 2) := by
  obtain ⟨y0, y1⟩ := block_val_zero y
  funext a
  apply Fin.ext
  match a with
  | ⟨0, _⟩ => show off 0 + 1 * (y 0).val = k.val; omega
  | ⟨1, _⟩ => show off 1 + 1 * (y 1).val = 0; omega
  | ⟨2, _⟩ => show off 2 + 1 * (y 2).val = (y 2).val; omega

/-- An index of the array is in the block at offsets (k, 0, 0) exactly when its row is k. -/
theorem mem_rowBlock {N : Nat} (off : Fin 3 → Nat) (k : Fin N) (h0 : off 0 = k.val) (h1 : off 1 = 0) (h2 : off 2 = 0)
    (inb : ∀ a, off a + S1x1x32.size a ≤ (⟨3, ![N, 1, 32]⟩ : Shape).size a) (i : (⟨3, ![N, 1, 32]⟩ : Shape).Idx) :
    i ∈ (Rect.unit (s := ⟨3, ![N, 1, 32]⟩) off S1x1x32.size inb).set ↔ i 0 = k := by
  rw [Rect.mem_set_unit]
  have hm := mid_val_zero i
  have hc : (i 2).val < 32 := (i 2).isLt
  constructor
  · intro h
    have b0 : off 0 ≤ (i 0).val ∧ (i 0).val < off 0 + 1 := h 0
    exact Fin.ext (by omega)
  · intro h a
    have hk : (i 0).val = k.val := congrArg Fin.val h
    match a with
    | ⟨0, _⟩ => show off 0 ≤ (i 0).val ∧ (i 0).val < off 0 + 1; omega
    | ⟨1, _⟩ => show off 1 ≤ (i 1).val ∧ (i 1).val < off 1 + 1; omega
    | ⟨2, _⟩ => show off 2 ≤ (i 2).val ∧ (i 2).val < off 2 + 32; omega

/-! ## The reshapes that add and drop the unit middle axis -/

/-- The reshape N × C → N × 1 × C read at (p, 0, d) is the operand at (p, d). -/
theorem shapeCast_addMid_apply {α : Type} {N C : Nat} (A : (⟨2, ![N, C]⟩ : Shape).Idx → α)
    (h : (⟨2, ![N, C]⟩ : Shape).ShapeCasts ⟨3, ![N, 1, C]⟩) (p : Fin N) (d : Fin C) :
    shapeCast ⟨3, ![N, 1, C]⟩ A h (ix3 p (0 : Fin 1) d) = A (ix2 p d) := by
  refine shapeCast_apply A h _ _ ?_
  rw [Shape.rowMajor_val_two, Shape.rowMajor_val_three]
  show p.val * C + d.val = (p.val * 1 + 0) * C + d.val
  rw [Nat.mul_one, Nat.add_zero]

/-- The reshape N × 1 × C → N × C read at (b, d) is the operand at (b, 0, d). -/
theorem shapeCast_dropMid_apply {α : Type} {N C : Nat} (B : (⟨3, ![N, 1, C]⟩ : Shape).Idx → α)
    (h : (⟨3, ![N, 1, C]⟩ : Shape).ShapeCasts ⟨2, ![N, C]⟩) (b : Fin N) (d : Fin C) :
    shapeCast ⟨2, ![N, C]⟩ B h (ix2 b d) = B (ix3 b (0 : Fin 1) d) := by
  refine shapeCast_apply B h _ _ ?_
  rw [Shape.rowMajor_val_two, Shape.rowMajor_val_three]
  show (b.val * 1 + 0) * C + d.val = b.val * C + d.val
  rw [Nat.mul_one, Nat.add_zero]

/-- The user and item tables as the gather call reads them: row p, column d of the reshaped table is the table's. -/
theorem tableReshape_apply {α : Type} (A : S1000000x32.Idx → α) (h : S1000000x32.ShapeCasts S1000000x1x32)
    (p : Fin 1000000) (d : Fin 32) : shapeCast S1000000x1x32 A h (ix3 p (0 : Fin 1) d) = A (ix2 p d) :=
  shapeCast_addMid_apply A h p d

/-- The gathered rows as the second call reads them: row b, column d is the gather result's (b, 0, d). -/
theorem rowsReshape_apply {α : Type} (B : S16384x1x32.Idx → α) (h : S16384x1x32.ShapeCasts S16384x32)
    (b : Fin 16384) (d : Fin 32) : shapeCast S16384x32 B h (ix2 b d) = B (ix3 b (0 : Fin 1) d) :=
  shapeCast_dropMid_apply B h b d

/-! ## The gather call's grid and index maps -/

variable {F : FTy → Type} [FloatOps F]

/-- The gather call's grid has 16384 points, -/
theorem gatherN : grid0.N = 16384 := by decide

/-- and a point's one coordinate is the point's number. -/
theorem gatherCoord_val (t : Fin grid0.N) : (grid0.coords t 0).val = t.val := by
  have hs : grid0.stride 0 = 1 := by decide
  have ht : t.val < 16384 := gatherN ▸ t.isLt
  show t.val / grid0.stride 0 % 16384 = t.val
  rw [hs, Nat.div_one, Nat.mod_eq_of_lt ht]

/-- A grid coordinate as a 32-bit word reads back as itself. -/
theorem coordWord_toNat (i : grid0.Coords) : (BitVec.ofNat 32 (i 0).val).toNat = (i 0).val := by
  have h : (i 0).val < 16384 := (i 0).isLt
  rw [BitVec.toNat_ofNat]
  exact Nat.mod_eq_of_lt (by omega)

/-- The user window's block index at coordinates i: the user id table's word at i, then 0, 0. -/
theorem userIndex_eq (pf : pre0.Contents (Elt F)) (i : grid0.Coords) :
    cc0_transform_0 k0_off1_inb numel1_S1 pf i = ![(pf 0 (ix1 (i 0))).toNat, 0, 0] := by
  have e : (Rect.unit (s := S16384) ![(BitVec.ofNat 32 (i 0).val).toNat] S1.size (k0_off1_inb i)).emb
      (Shape.Idx.first (numel1_S1.symm ▸ Nat.one_pos)) = ix1 (i 0) := by
    funext b
    apply Fin.ext
    match b with
    | ⟨0, _⟩ => show (BitVec.ofNat 32 (i 0).val).toNat + 1 * 0 = (i 0).val; rw [coordWord_toNat]; omega
  funext b
  match b with
  | ⟨0, _⟩ => exact congrArg (fun j => (pf 0 j).toNat) e
  | ⟨1, _⟩ => rfl
  | ⟨2, _⟩ => rfl

/-- The item window's block index at coordinates i: the item id table's word at i, then 0, 0. -/
theorem itemIndex_eq (pf : pre0.Contents (Elt F)) (i : grid0.Coords) :
    cc0_transform_1 k0_off1_inb numel1_S1 pf i = ![(pf 1 (ix1 (i 0))).toNat, 0, 0] := by
  have e : (Rect.unit (s := S16384) ![(BitVec.ofNat 32 (i 0).val).toNat] S1.size (k0_off1_inb i)).emb
      (Shape.Idx.first (numel1_S1.symm ▸ Nat.one_pos)) = ix1 (i 0) := by
    funext b
    apply Fin.ext
    match b with
    | ⟨0, _⟩ => show (BitVec.ofNat 32 (i 0).val).toNat + 1 * 0 = (i 0).val; rw [coordWord_toNat]; omega
  funext b
  match b with
  | ⟨0, _⟩ => exact congrArg (fun j => (pf 1 j).toNat) e
  | ⟨1, _⟩ => rfl
  | ⟨2, _⟩ => rfl

/-- The two output windows' block index at coordinates i: the coordinate, then 0, 0. -/
theorem userOutIndex_eq (i : grid0.Coords) : cc0_transform_2 i = ![(i 0).val, 0, 0] := by
  funext b
  match b with
  | ⟨0, _⟩ => exact coordWord_toNat i
  | ⟨1, _⟩ => rfl
  | ⟨2, _⟩ => rfl
theorem itemOutIndex_eq (i : grid0.Coords) : cc0_transform_3 i = ![(i 0).val, 0, 0] := by
  funext b
  match b with
  | ⟨0, _⟩ => exact coordWord_toNat i
  | ⟨1, _⟩ => rfl
  | ⟨2, _⟩ => rfl

/-! ## The gather call's blocks in their arrays -/

/-- The user window's block at point t is row k of the reshaped user table, k the user id at t. -/
theorem userBlk_emb (a : (pcfg0 (F := F)).Adm) (t : Fin (cfg0 a).N) (k : Fin 1000000)
    (hk : (a.1 0 (ix1 (grid0.coords t 0))).toNat = k.val) (y : S1x1x32.Idx) :
    ((win0 a 0).blk t).view.emb y = (ix3 k (0 : Fin 1) (y 2) : S1000000x1x32.Idx) :=
  rowBlock_emb _ k
    (by show cc0_transform_0 k0_off1_inb numel1_S1 a.1 (grid0.coords t) 0 * 1 = k.val
        rw [userIndex_eq]; show (a.1 0 (ix1 (grid0.coords t 0))).toNat * 1 = k.val; omega)
    rfl rfl _ y

/-- The item window's block at point t is row k of the reshaped item table, k the item id at t. -/
theorem itemBlk_emb (a : (pcfg0 (F := F)).Adm) (t : Fin (cfg0 a).N) (k : Fin 1000000)
    (hk : (a.1 1 (ix1 (grid0.coords t 0))).toNat = k.val) (y : S1x1x32.Idx) :
    ((win0 a 1).blk t).view.emb y = (ix3 k (0 : Fin 1) (y 2) : S1000000x1x32.Idx) :=
  rowBlock_emb _ k
    (by show cc0_transform_1 k0_off1_inb numel1_S1 a.1 (grid0.coords t) 0 * 1 = k.val
        rw [itemIndex_eq]; show (a.1 1 (ix1 (grid0.coords t 0))).toNat * 1 = k.val; omega)
    rfl rfl _ y

/-- The user output window's block at point t is row t of the gathered user rows. -/
theorem userOutBlk_emb (a : (pcfg0 (F := F)).Adm) (t : Fin (cfg0 a).N) (k : Fin 16384) (hk : t.val = k.val)
    (y : S1x1x32.Idx) :
    ((win0 a 2).blk t).view.emb y = (ix3 k (0 : Fin 1) (y 2) : S16384x1x32.Idx) :=
  rowBlock_emb _ k
    (by show cc0_transform_2 (grid0.coords t) 0 * 1 = k.val
        rw [userOutIndex_eq]; show (grid0.coords t 0).val * 1 = k.val; rw [gatherCoord_val]; omega)
    rfl rfl _ y

/-- The item output window's block at point t is row t of the gathered item rows. -/
theorem itemOutBlk_emb (a : (pcfg0 (F := F)).Adm) (t : Fin (cfg0 a).N) (k : Fin 16384) (hk : t.val = k.val)
    (y : S1x1x32.Idx) :
    ((win0 a 3).blk t).view.emb y = (ix3 k (0 : Fin 1) (y 2) : S16384x1x32.Idx) :=
  rowBlock_emb _ k
    (by show cc0_transform_3 (grid0.coords t) 0 * 1 = k.val
        rw [itemOutIndex_eq]; show (grid0.coords t 0).val * 1 = k.val; rw [gatherCoord_val]; omega)
    rfl rfl _ y

/-- An index of the gathered user rows is in point t's block exactly when its row is t. -/
theorem mem_userOutBlk (a : (pcfg0 (F := F)).Adm) (t : Fin (cfg0 a).N) (i : S16384x1x32.Idx) :
    i ∈ ((win0 a 2).blk t).view.set ↔ (i 0).val = t.val := by
  have ht : t.val < 16384 := gatherN ▸ t.isLt
  show i ∈ ((View.whole main_v2_0).slice ((win0 a 2).rect t)).set ↔ _
  rw [View.set_slice_whole]
  refine (mem_rowBlock _ ⟨t.val, ht⟩
    (by show cc0_transform_2 (grid0.coords t) 0 * 1 = t.val
        rw [userOutIndex_eq]; show (grid0.coords t 0).val * 1 = t.val; rw [gatherCoord_val]; omega)
    rfl rfl _ i).trans ?_
  exact ⟨fun h => congrArg Fin.val h, fun h => Fin.ext h⟩

/-- An index of the gathered item rows is in point t's block exactly when its row is t. -/
theorem mem_itemOutBlk (a : (pcfg0 (F := F)).Adm) (t : Fin (cfg0 a).N) (i : S16384x1x32.Idx) :
    i ∈ ((win0 a 3).blk t).view.set ↔ (i 0).val = t.val := by
  have ht : t.val < 16384 := gatherN ▸ t.isLt
  show i ∈ ((View.whole main_v2_1).slice ((win0 a 3).rect t)).set ↔ _
  rw [View.set_slice_whole]
  refine (mem_rowBlock _ ⟨t.val, ht⟩
    (by show cc0_transform_3 (grid0.coords t) 0 * 1 = t.val
        rw [itemOutIndex_eq]; show (grid0.coords t 0).val * 1 = t.val; rw [gatherCoord_val]; omega)
    rfl rfl _ i).trans ?_
  exact ⟨fun h => congrArg Fin.val h, fun h => Fin.ext h⟩

end Cert.KernelIdeal.Hand

end
-- ==== Proof.KIValue0.lean ====
/-
  The gather call's two result arrays after the whole region: row b of the gathered user matrix is row user_ids[b] of
  the user table as the region found it, and likewise for the items. Point t writes back row t alone, so the 16384 points
  cover each result array, and what point t writes is the block its table-indexed input window fetched.
-/
import proofs.«428979_j90804198572513_1_alg».proof.Proof.KIRegion0
import proofs.«428979_j90804198572513_1_alg».proof.Proof.KIGatherValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## The two output windows' schedule: written back at every point, whatever the tables hold -/

/-- Consecutive points have different coordinates. -/
theorem gatherCoord_succ_ne (t : Fin grid0.N) (h : t.val + 1 < grid0.N) :
    (grid0.coords ⟨t.val + 1, h⟩ 0).val ≠ (grid0.coords t 0).val := by
  rw [gatherCoord_val, gatherCoord_val]
  show t.val + 1 ≠ t.val
  omega

/-- The user output window is written back at every point: its block index is the point's number. -/
theorem flush0_2 (a : (pcfg0 (F := F)).Adm) (t : Fin (cfg0 a).N) : ((cfg0 a).win 2).flush t = true := by
  show Pipeline.Window.flushOf grid0 true cc0_transform_2 t = true
  unfold Pipeline.Window.flushOf
  rw [Bool.true_and, Bool.or_eq_true, decide_eq_true_eq, decide_eq_true_eq]
  by_cases h : t.val + 1 = grid0.N
  · exact Or.inl h
  · have hlt : t.val + 1 < grid0.N := by have ht : t.val < grid0.N := t.isLt; omega
    refine Or.inr ⟨hlt, fun e => gatherCoord_succ_ne t hlt ?_⟩
    have e0 := congrFun e 0
    rw [userOutIndex_eq, userOutIndex_eq] at e0
    exact e0

/-- The item output window is written back at every point. -/
theorem flush0_3 (a : (pcfg0 (F := F)).Adm) (t : Fin (cfg0 a).N) : ((cfg0 a).win 3).flush t = true := by
  show Pipeline.Window.flushOf grid0 true cc0_transform_3 t = true
  unfold Pipeline.Window.flushOf
  rw [Bool.true_and, Bool.or_eq_true, decide_eq_true_eq, decide_eq_true_eq]
  by_cases h : t.val + 1 = grid0.N
  · exact Or.inl h
  · have hlt : t.val + 1 < grid0.N := by have ht : t.val < grid0.N := t.isLt; omega
    refine Or.inr ⟨hlt, fun e => gatherCoord_succ_ne t hlt ?_⟩
    have e0 := congrFun e 0
    rw [itemOutIndex_eq, itemOutIndex_eq] at e0
    exact e0

/-- Every index of the gathered user rows lies in the block of the point its row names. -/
theorem cover0_2 (a : (pcfg0 (F := F)).Adm) (i : S16384x1x32.Idx) :
    ∃ t : Fin (cfg0 a).N, ((cfg0 a).win 2).flush t = true ∧ i ∈ (((cfg0 a).win 2).blk t).view.set :=
  ⟨⟨(i 0).val, lt_of_lt_of_eq (show (i 0).val < 16384 from (i 0).isLt) gatherN.symm⟩, flush0_2 a _, (mem_userOutBlk a _ i).mpr rfl⟩

/-- Every index of the gathered item rows lies in the block of the point its row names. -/
theorem cover0_3 (a : (pcfg0 (F := F)).Adm) (i : S16384x1x32.Idx) :
    ∃ t : Fin (cfg0 a).N, ((cfg0 a).win 3).flush t = true ∧ i ∈ (((cfg0 a).win 3).blk t).view.set :=
  ⟨⟨(i 0).val, lt_of_lt_of_eq (show (i 0).val < 16384 from (i 0).isLt) gatherN.symm⟩, flush0_3 a _, (mem_itemOutBlk a _ i).mpr rfl⟩

variable (m : (ℓ : Loc nD τ sig) → Buf (Elt F) ℓ) (hO : Ok m)
variable (V : (c : Dev nD) → (b : Ref sig .tc) → Buf (Elt F) ((c : Thread nD τ).loc b))

/-! ## What each output array ends holding, as one function of the tables the region found -/

/-- The gathered user rows: row b is the user table's row named by user id b. -/
def gUser (h0 : ∀ i : S16384.Idx, (tbl m 0 i).toNat < 1000000) (c : Dev nD) : S16384x1x32.Idx → Elt F .f32 :=
  fun i => V c main_v0 (ix3 (⟨(tbl m 0 (ix1 (i 0))).toNat, h0 _⟩ : Fin 1000000) (0 : Fin 1) (i 2))

/-- The gathered item rows: row b is the item table's row named by item id b. -/
def gItem (h1 : ∀ i : S16384.Idx, (tbl m 1 i).toNat < 1000000) (c : Dev nD) : S16384x1x32.Idx → Elt F .f32 :=
  fun i => V c main_v1 (ix3 (⟨(tbl m 1 (ix1 (i 0))).toNat, h1 _⟩ : Fin 1000000) (0 : Fin 1) (i 2))

/-- What point t writes back to the gathered user rows is block t of that function: the copy of the user block the
    point fetched, which is the table's row at the point's user id, and the output block is row t. -/
theorem flushed0_2 (h0 : ∀ i : S16384.Idx, (tbl m 0 i).toNat < 1000000) (c : Dev nD) (t : Fin (cfgM m hO).N) :
    (dat0 m hO V c).flushed 2 t = (((cfgM m hO).win 2).blk t).view.read (Elt F) (gUser m V h0 c) := by
  have e : (dat0 m hO V c).after 2 t = iblk0 m hO V c 0 t := (after0_2 m hO V c t).trans (userOut_eq _)
  have ht : t.val < 16384 := gatherN ▸ t.isLt
  have ec : grid0.coords t 0 = (⟨t.val, ht⟩ : Fin 16384) := Fin.ext (gatherCoord_val t)
  funext y
  show (dat0 m hO V c).after 2 t y = gUser m V h0 c (((win0 (adm0 m hO) 2).blk t).view.emb y)
  rw [e]
  show V c main_v0 (((win0 (adm0 m hO) 0).blk t).view.emb y) = gUser m V h0 c (((win0 (adm0 m hO) 2).blk t).view.emb y)
  rw [userOutBlk_emb (adm0 m hO) t ⟨t.val, ht⟩ rfl y,
    userBlk_emb (adm0 m hO) t ⟨_, h0 (ix1 (grid0.coords t 0))⟩ rfl y]
  exact congrArg (fun x : Fin 16384 => V c main_v0 (ix3 (⟨(tbl m 0 (ix1 x)).toNat, h0 _⟩ : Fin 1000000) (0 : Fin 1) ((show S1x1x32.Idx from y) 2))) ec

/-- What point t writes back to the gathered item rows is block t of that function. -/
theorem flushed0_3 (h1 : ∀ i : S16384.Idx, (tbl m 1 i).toNat < 1000000) (c : Dev nD) (t : Fin (cfgM m hO).N) :
    (dat0 m hO V c).flushed 3 t = (((cfgM m hO).win 3).blk t).view.read (Elt F) (gItem m V h1 c) := by
  have e : (dat0 m hO V c).after 3 t = iblk0 m hO V c 1 t := (after0_3 m hO V c t).trans (itemOut_eq _)
  have ht : t.val < 16384 := gatherN ▸ t.isLt
  have ec : grid0.coords t 0 = (⟨t.val, ht⟩ : Fin 16384) := Fin.ext (gatherCoord_val t)
  funext y
  show (dat0 m hO V c).after 3 t y = gItem m V h1 c (((win0 (adm0 m hO) 3).blk t).view.emb y)
  rw [e]
  show V c main_v1 (((win0 (adm0 m hO) 1).blk t).view.emb y) = gItem m V h1 c (((win0 (adm0 m hO) 3).blk t).view.emb y)
  rw [itemOutBlk_emb (adm0 m hO) t ⟨t.val, ht⟩ rfl y,
    itemBlk_emb (adm0 m hO) t ⟨_, h1 (ix1 (grid0.coords t 0))⟩ rfl y]
  exact congrArg (fun x : Fin 16384 => V c main_v1 (ix3 (⟨(tbl m 1 (ix1 x)).toNat, h1 _⟩ : Fin 1000000) (0 : Fin 1) ((show S1x1x32.Idx from y) 2))) ec

/-- Element (b, 0, d) of the gathered user matrix after the region. -/
theorem final0_user (h0 : ∀ i : S16384.Idx, (tbl m 0 i).toNat < 1000000) (c : Dev nD) (b : Fin 16384) (d : Fin 32) :
    (dat0 m hO V c).arrAt 2 (cfgM m hO).N (ix3 b (0 : Fin 1) d)
      = V c main_v0 (ix3 (⟨(tbl m 0 (ix1 b)).toNat, h0 _⟩ : Fin 1000000) (0 : Fin 1) d) :=
  congrFun ((dat0 m hO V c).arrAt_eq_of_cover 2 (gUser m V h0 c) (fun t _ => flushed0_2 m hO V h0 c t)
    (cover0_2 (adm0 m hO))) (ix3 b (0 : Fin 1) d)

/-- Element (b, 0, d) of the gathered item matrix after the region. -/
theorem final0_item (h1 : ∀ i : S16384.Idx, (tbl m 1 i).toNat < 1000000) (c : Dev nD) (b : Fin 16384) (d : Fin 32) :
    (dat0 m hO V c).arrAt 3 (cfgM m hO).N (ix3 b (0 : Fin 1) d)
      = V c main_v1 (ix3 (⟨(tbl m 1 (ix1 b)).toNat, h1 _⟩ : Fin 1000000) (0 : Fin 1) d) :=
  congrFun ((dat0 m hO V c).arrAt_eq_of_cover 3 (gItem m V h1 c) (fun t _ => flushed0_3 m hO V h1 c t)
    (cover0_3 (adm0 m hO))) (ix3 b (0 : Fin 1) d)

end Cert.KernelIdeal.Hand

end
-- ==== Proof.Spec.lean ====
/-
  The function both programs compute, over the extended reals, one batch entry at a time.

  For batch entry b: x is row user_ids[b] of the user table and y row item_ids[b] of the item table (32 numbers each).
  Each is rescaled to Euclidean norm at most one, u = x · (1 / max (‖x‖, 1)) and v likewise from y. The ten attention
  logits are l k = ∑ d, (u d · v d) · W k d; they are shifted by their maximum, exponentiated and normalised to
  p k = exp (l k − top l) / ∑ k', exp (l k' − top l); the relation vector is r d = ∑ k, p k · M k d; and the entry's
  result is −∑ d, (u d + r d − v d)².
-/
import Idealize.ShloMosaic.PureOps.Ideal
import Idealize.ShloMosaic.Lib.ValueIdx

noncomputable section

namespace Cert.Proof.Spec

open Idealize.ShloMosaic Idealize.ShloMosaic.ValueIdx

/-- The literal 1.0 and the literal −∞, as the two programs carry them. -/
abbrev one : EReal := Ideal.ofBits .f32 0x3F800000#32
abbrev negInf : EReal := Ideal.ofBits .f32 0xFF800000#32

/-- 1 / max (‖x‖, 1): the factor that brings a row to norm at most one. -/
def scale (x : Fin 32 → EReal) : EReal := Ideal.div one (max (Ideal.sqrt (∑ e : Fin 32, x e * x e)) one)

/-- The row rescaled. -/
def renorm (x : Fin 32 → EReal) (d : Fin 32) : EReal := x d * scale x

/-- The attention logits of the elementwise product of two rows. -/
def logit (u v : Fin 32 → EReal) (W : Fin 10 → Fin 32 → EReal) (k : Fin 10) : EReal := ∑ d : Fin 32, (u d * v d) * W k d

/-- The largest logit (never below −∞). -/
def top (l : Fin 10 → EReal) : EReal := max negInf ((Finset.univ : Finset (Fin 10)).fold max negInf l)

/-- The shifted exponentials and the softmax weights. -/
def expo (l : Fin 10 → EReal) (k : Fin 10) : EReal := Ideal.exp (l k - top l)
def prob (l : Fin 10 → EReal) (k : Fin 10) : EReal := Ideal.div (expo l k) (∑ k' : Fin 10, expo l k')

/-- The relation vector: the memory rows mixed by the weights. -/
def rel (p : Fin 10 → EReal) (M : Fin 10 → Fin 32 → EReal) (d : Fin 32) : EReal := ∑ k : Fin 10, p k * M k d

/-- One batch entry's result from its two table rows, the attention matrix W and the memory M (both 10 × 32). -/
def score (x y : Fin 32 → EReal) (W M : Fin 10 → Fin 32 → EReal) : EReal :=
  -(∑ d : Fin 32, (renorm x d + rel (prob (logit (renorm x) (renorm y) W)) M d - renorm y d)
      * (renorm x d + rel (prob (logit (renorm x) (renorm y) W)) M d - renorm y d))

/-- The table row an id word names: the word read signed and clamped into the table. -/
def rowOf (w : BitVec 32) : Fin 1000000 := ⟨min w.toInt.toNat (1000000 - 1), by omega⟩

/-- An id word below 1000000 unsigned names the row of that number. -/
theorem rowOf_val (w : BitVec 32) (h : w.toNat < 1000000) : (rowOf w).val = w.toNat := by
  have h32 := w.isLt
  unfold rowOf BitVec.toInt
  simp only
  split <;> omega

/-- The whole result: entry b from row user_ids[b] of the user table and row item_ids[b] of the item table. -/
def G (a0 a1 : (⟨1, ![16384]⟩ : Shape).Idx → BitVec 32) (A2 A3 : (⟨2, ![1000000, 32]⟩ : Shape).Idx → EReal)
    (A4 A5 : (⟨2, ![10, 32]⟩ : Shape).Idx → EReal) : (⟨1, ![16384]⟩ : Shape).Idx → EReal :=
  fun i => score (fun d => A2 (ix2 (rowOf (a0 i)) d)) (fun d => A3 (ix2 (rowOf (a1 i)) d))
    (fun k d => A4 (ix2 k d)) (fun k d => A5 (ix2 k d))

end Cert.Proof.Spec

end
-- ==== Proof.KIComputeValue.lean ====
/-
  The scoring body's arithmetic read at one row of its block, over the extended reals: row r of the score block is the
  specification's score of row r of the user block and row r of the item block, with the attention matrix read through
  its transpose.
-/
import proofs.«428979_j90804198572513_1_alg».proof.Proof.KICompute
import proofs.«428979_j90804198572513_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

namespace ScoreValue

open Cert.Proof

/-! ## The keepdims column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sums and the row maximum at a row -/

/-- The sum over the 32 lanes of a row of products. -/
theorem laneSum32_apply (w : FVec Ideal S4096x32 .f32) (r : Fin 4096) :
    multiReduction (F := Ideal) .add [1] S4096 w 0x00000000#32 reduces_S4096x32_S4096 (.inl rfl) rfl (ix1 r)
      = ∑ e : Fin 32, w (ix2 r e) := by
  refine (Ideal.multiReduction_add_single w _ reduces_S4096x32_S4096 _ _ (ix1 r)).trans ?_
  refine Finset.sum_congr rfl fun e _ => ?_
  exact congrArg w (funext fun a => Fin.ext (by match a with | ⟨0, _⟩ => rfl | ⟨1, _⟩ => rfl))

/-- The sum over the 10 lanes of a row. -/
theorem laneSum10_apply (w : FVec Ideal S4096x10 .f32) (r : Fin 4096) :
    multiReduction (F := Ideal) .add [1] S4096 w 0x00000000#32 reduces_S4096x10_S4096 (.inl rfl) rfl (ix1 r)
      = ∑ k : Fin 10, w (ix2 r k) := by
  refine (Ideal.multiReduction_add_single w _ reduces_S4096x10_S4096 _ _ (ix1 r)).trans ?_
  refine Finset.sum_congr rfl fun k _ => ?_
  exact congrArg w (funext fun a => Fin.ext (by match a with | ⟨0, _⟩ => rfl | ⟨1, _⟩ => rfl))

/-- The maximum over the 10 lanes of a row, from −∞. -/
theorem laneMax10_apply (w : FVec Ideal S4096x10 .f32) (r : Fin 4096) :
    multiReduction (F := Ideal) .maximumf [1] S4096 w 0xFF800000#32 reduces_S4096x10_S4096 (.inl rfl) rfl (ix1 r)
      = (Finset.univ : Finset (Fin 10)).fold max Spec.negInf (fun k => w (ix2 r k)) := by
  refine (Ideal.multiReduction_maximumf_single w _ reduces_S4096x10_S4096 _ _ (ix1 r)).trans ?_
  refine congrArg ((Finset.univ : Finset (Fin 10)).fold max Spec.negInf) (funext fun k => ?_)
  exact congrArg w (funext fun a => Fin.ext (by match a with | ⟨0, _⟩ => rfl | ⟨1, _⟩ => rfl))

/-! ## The rescaled rows -/

theorem pay2_apply (v : Vec Ideal S4096x32 .f32) (r : Fin 4096) (d : Fin 32) :
    k1_pay2 (F := Ideal) v (ix2 r d) = Spec.renorm (fun e => v (ix2 r e)) d := by
  unfold k1_pay2 Spec.renorm Spec.scale
  simp only [shapeCast_self]
  refine (mulf_apply _ _ _).trans ?_
  refine congrArg (v (ix2 r d) * ·) ?_
  refine (broadcastTo_a1_ab_apply _ _ r d).trans ?_
  refine (divf_apply _ _ _).trans ?_
  refine congrArg (Ideal.div Spec.one) ?_
  refine (maximumf_apply _ _ _).trans ?_
  refine congrArg (max · Spec.one) ?_
  show Ideal.sqrt _ = Ideal.sqrt _
  refine congrArg Ideal.sqrt ?_
  refine (shapeCast_a_a1_apply _ _ r 0).trans ?_
  exact laneSum32_apply _ r

theorem pay3_apply (v : Vec Ideal S4096x32 .f32) (r : Fin 4096) (d : Fin 32) :
    k1_pay3 (F := Ideal) v (ix2 r d) = Spec.renorm (fun e => v (ix2 r e)) d := by
  unfold k1_pay3 Spec.renorm Spec.scale
  simp only [shapeCast_self]
  refine (mulf_apply _ _ _).trans ?_
  refine congrArg (v (ix2 r d) * ·) ?_
  refine (broadcastTo_a1_ab_apply _ _ r d).trans ?_
  refine (divf_apply _ _ _).trans ?_
  refine congrArg (Ideal.div Spec.one) ?_
  refine (maximumf_apply _ _ _).trans ?_
  refine congrArg (max · Spec.one) ?_
  show Ideal.sqrt _ = Ideal.sqrt _
  refine congrArg Ideal.sqrt ?_
  refine (shapeCast_a_a1_apply _ _ r 0).trans ?_
  exact laneSum32_apply _ r

/-! ## The two products of matrices at an entry -/

theorem lhs_logit_0 (i : S4096x10.Idx) (q : dot_S4096x32_S32x10_S4096x10_1_0_0_1_n_n.contr.Idx) :
    (dot_S4096x32_S32x10_S4096x10_1_0_0_1_n_n.lhsIdx i q 0).val = (i 0).val := by
  unfold DotDims.lhsIdx
  rw [dif_neg (show ¬(0 : Fin S4096x32.rank) ∈ dot_S4096x32_S32x10_S4096x10_1_0_0_1_n_n.lhsBatch by decide), dif_pos (show (0 : Fin S4096x32.rank) ∈ dot_S4096x32_S32x10_S4096x10_1_0_0_1_n_n.lhsNonContracting by decide)]
  rfl
theorem lhs_logit_1 (i : S4096x10.Idx) (q : dot_S4096x32_S32x10_S4096x10_1_0_0_1_n_n.contr.Idx) :
    (dot_S4096x32_S32x10_S4096x10_1_0_0_1_n_n.lhsIdx i q 1).val = (q ⟨0, by decide⟩).val :=
  dot_S4096x32_S32x10_S4096x10_1_0_0_1_n_n.lhsIdx_val_of_single rfl i q
theorem rhs_logit_0 (i : S4096x10.Idx) (q : dot_S4096x32_S32x10_S4096x10_1_0_0_1_n_n.contr.Idx) :
    (dot_S4096x32_S32x10_S4096x10_1_0_0_1_n_n.rhsIdx i q 0).val = (q ⟨0, by decide⟩).val :=
  dot_S4096x32_S32x10_S4096x10_1_0_0_1_n_n.rhsIdx_val_of_single rfl i q
theorem rhs_logit_1 (i : S4096x10.Idx) (q : dot_S4096x32_S32x10_S4096x10_1_0_0_1_n_n.contr.Idx) :
    (dot_S4096x32_S32x10_S4096x10_1_0_0_1_n_n.rhsIdx i q 1).val = (i 1).val := by
  unfold DotDims.rhsIdx
  rw [dif_neg (show ¬(1 : Fin S32x10.rank) ∈ dot_S4096x32_S32x10_S4096x10_1_0_0_1_n_n.rhsBatch by decide), dif_pos (show (1 : Fin S32x10.rank) ∈ dot_S4096x32_S32x10_S4096x10_1_0_0_1_n_n.rhsNonContracting by decide)]
  rfl

/-- The 4096×32 by 32×10 product into the zero matrix, at an entry: the sum over the 32 inner coordinates. -/
theorem matmul_logit_apply (A : FVec Ideal S4096x32 .bf16) (B : FVec Ideal S32x10 .bf16) (r : Fin 4096) (k : Fin 10) :
    matmul (F := Ideal) dot_S4096x32_S32x10_S4096x10_1_0_0_1_n_n none A B (constant (F := Ideal) S4096x10 .f32 0x00000000#32) (ix2 r k)
      = ∑ d : Fin 32, A (ix2 r d) * B (ix2 d k) := by
  simp only [matmul]
  rw [Ideal.matmul_constant_zero_apply, ← Equiv.sum_comp (ValueIdx.contrEquiv1 dot_S4096x32_S32x10_S4096x10_1_0_0_1_n_n 32 rfl rfl).symm]
  refine Finset.sum_congr rfl fun d _ => ?_
  have hk := ValueIdx.contrEquiv1_symm_val dot_S4096x32_S32x10_S4096x10_1_0_0_1_n_n 32 rfl rfl d
  have el : dot_S4096x32_S32x10_S4096x10_1_0_0_1_n_n.lhsIdx (ix2 r k) ((ValueIdx.contrEquiv1 dot_S4096x32_S32x10_S4096x10_1_0_0_1_n_n 32 rfl rfl).symm d) = ix2 r d := funext fun a => Fin.ext (by
    match a with
    | ⟨0, _⟩ => exact lhs_logit_0 _ _
    | ⟨1, _⟩ => exact (lhs_logit_1 _ _).trans hk)
  have er : dot_S4096x32_S32x10_S4096x10_1_0_0_1_n_n.rhsIdx (ix2 r k) ((ValueIdx.contrEquiv1 dot_S4096x32_S32x10_S4096x10_1_0_0_1_n_n 32 rfl rfl).symm d) = ix2 d k := funext fun a => Fin.ext (by
    match a with
    | ⟨0, _⟩ => exact (rhs_logit_0 _ _).trans hk
    | ⟨1, _⟩ => exact rhs_logit_1 _ _)
  rw [el, er]

theorem lhs_rel_0 (i : S4096x32.Idx) (q : dot_S4096x10_S10x32_S4096x32_1_0_0_1_n_n.contr.Idx) :
    (dot_S4096x10_S10x32_S4096x32_1_0_0_1_n_n.lhsIdx i q 0).val = (i 0).val := by
  unfold DotDims.lhsIdx
  rw [dif_neg (show ¬(0 : Fin S4096x10.rank) ∈ dot_S4096x10_S10x32_S4096x32_1_0_0_1_n_n.lhsBatch by decide), dif_pos (show (0 : Fin S4096x10.rank) ∈ dot_S4096x10_S10x32_S4096x32_1_0_0_1_n_n.lhsNonContracting by decide)]
  rfl
theorem lhs_rel_1 (i : S4096x32.Idx) (q : dot_S4096x10_S10x32_S4096x32_1_0_0_1_n_n.contr.Idx) :
    (dot_S4096x10_S10x32_S4096x32_1_0_0_1_n_n.lhsIdx i q 1).val = (q ⟨0, by decide⟩).val :=
  dot_S4096x10_S10x32_S4096x32_1_0_0_1_n_n.lhsIdx_val_of_single rfl i q
theorem rhs_rel_0 (i : S4096x32.Idx) (q : dot_S4096x10_S10x32_S4096x32_1_0_0_1_n_n.contr.Idx) :
    (dot_S4096x10_S10x32_S4096x32_1_0_0_1_n_n.rhsIdx i q 0).val = (q ⟨0, by decide⟩).val :=
  dot_S4096x10_S10x32_S4096x32_1_0_0_1_n_n.rhsIdx_val_of_single rfl i q
theorem rhs_rel_1 (i : S4096x32.Idx) (q : dot_S4096x10_S10x32_S4096x32_1_0_0_1_n_n.contr.Idx) :
    (dot_S4096x10_S10x32_S4096x32_1_0_0_1_n_n.rhsIdx i q 1).val = (i 1).val := by
  unfold DotDims.rhsIdx
  rw [dif_neg (show ¬(1 : Fin S10x32.rank) ∈ dot_S4096x10_S10x32_S4096x32_1_0_0_1_n_n.rhsBatch by decide), dif_pos (show (1 : Fin S10x32.rank) ∈ dot_S4096x10_S10x32_S4096x32_1_0_0_1_n_n.rhsNonContracting by decide)]
  rfl

/-- The 4096×10 by 10×32 product into the zero matrix, at an entry: the sum over the 10 inner coordinates. -/
theorem matmul_rel_apply (A : FVec Ideal S4096x10 .bf16) (B : FVec Ideal S10x32 .bf16) (r : Fin 4096) (d : Fin 32) :
    matmul (F := Ideal) dot_S4096x10_S10x32_S4096x32_1_0_0_1_n_n none A B (constant (F := Ideal) S4096x32 .f32 0x00000000#32) (ix2 r d)
      = ∑ k : Fin 10, A (ix2 r k) * B (ix2 k d) := by
  simp only [matmul]
  rw [Ideal.matmul_constant_zero_apply, ← Equiv.sum_comp (ValueIdx.contrEquiv1 dot_S4096x10_S10x32_S4096x32_1_0_0_1_n_n 10 rfl rfl).symm]
  refine Finset.sum_congr rfl fun k _ => ?_
  have hk := ValueIdx.contrEquiv1_symm_val dot_S4096x10_S10x32_S4096x32_1_0_0_1_n_n 10 rfl rfl k
  have el : dot_S4096x10_S10x32_S4096x32_1_0_0_1_n_n.lhsIdx (ix2 r d) ((ValueIdx.contrEquiv1 dot_S4096x10_S10x32_S4096x32_1_0_0_1_n_n 10 rfl rfl).symm k) = ix2 r k := funext fun a => Fin.ext (by
    match a with
    | ⟨0, _⟩ => exact lhs_rel_0 _ _
    | ⟨1, _⟩ => exact (lhs_rel_1 _ _).trans hk)
  have er : dot_S4096x10_S10x32_S4096x32_1_0_0_1_n_n.rhsIdx (ix2 r d) ((ValueIdx.contrEquiv1 dot_S4096x10_S10x32_S4096x32_1_0_0_1_n_n 10 rfl rfl).symm k) = ix2 k d := funext fun a => Fin.ext (by
    match a with
    | ⟨0, _⟩ => exact (rhs_rel_0 _ _).trans hk
    | ⟨1, _⟩ => exact rhs_rel_1 _ _)
  rw [el, er]

/-! ## The logits, the shifted exponentials and their sum -/

/-- The attention logits of a row: the product of the two rescaled rows against the transposed attention matrix. -/
theorem logits_apply (v0 v2 : Vec Ideal S4096x32 .f32) (v25 : Vec Ideal S32x10 .f32) (r : Fin 4096) (k : Fin 10) :
    matmul (F := Ideal) dot_S4096x32_S32x10_S4096x10_1_0_0_1_n_n none
        (truncf .bf16 (mulf (k1_pay2 (F := Ideal) v0) (k1_pay3 (F := Ideal) v2)) bitsLt_bf16_f32)
        (truncf .bf16 (shapeCast S32x10 v25 shapeCasts_S32x10_S32x10) bitsLt_bf16_f32)
        (constant (F := Ideal) S4096x10 .f32 0x00000000#32) (ix2 r k)
      = Spec.logit (Spec.renorm (fun e => v0 (ix2 r e))) (Spec.renorm (fun e => v2 (ix2 r e))) (fun k d => v25 (ix2 d k)) k := by
  refine (matmul_logit_apply _ _ r k).trans ?_
  unfold Spec.logit
  refine Finset.sum_congr rfl fun d _ => ?_
  rw [shapeCast_self]
  show (k1_pay2 (F := Ideal) v0 (ix2 r d) * k1_pay3 (F := Ideal) v2 (ix2 r d)) * v25 (ix2 d k) = _
  rw [pay2_apply, pay3_apply]

/-- The exponentials of a row of logits shifted by the row's maximum. -/
theorem shiftExp_apply (L : FVec Ideal S4096x10 .f32) (r : Fin 4096) (k : Fin 10) :
    exp (subf L (broadcastTo S4096x10 (shapeCast S4096x1
        (maximumf (broadcast S4096 (FloatOps.ofBits (F := Ideal) .f32 0xFF800000#32))
          (multiReduction (F := Ideal) .maximumf [1] S4096 L 0xFF800000#32 reduces_S4096x10_S4096 (.inl rfl) rfl))
        shapeCasts_S4096_S4096x1) broadcasts_S4096x1_S4096x10)) (ix2 r k)
      = Spec.expo (fun k' => L (ix2 r k')) k := by
  unfold Spec.expo Spec.top
  show Ideal.exp (L (ix2 r k) - _) = _
  refine congrArg (fun t => Ideal.exp (L (ix2 r k) - t)) ?_
  refine (broadcastTo_a1_ab_apply _ _ r k).trans ?_
  refine (shapeCast_a_a1_apply _ _ r 0).trans ?_
  refine (maximumf_apply _ _ _).trans ?_
  refine congrArg (max Spec.negInf) ?_
  exact laneMax10_apply L r

theorem pay4_apply (v0 v2 : Vec Ideal S4096x32 .f32) (v25 : Vec Ideal S32x10 .f32) (r : Fin 4096) (k : Fin 10) :
    k1_pay4 (F := Ideal) v0 v2 v25 (ix2 r k)
      = Spec.expo (Spec.logit (Spec.renorm (fun e => v0 (ix2 r e))) (Spec.renorm (fun e => v2 (ix2 r e))) (fun k d => v25 (ix2 d k))) k := by
  unfold k1_pay4
  refine (shiftExp_apply _ r k).trans ?_
  refine congrArg (fun l => Spec.expo l k) (funext fun k' => ?_)
  exact logits_apply v0 v2 v25 r k'

theorem pay5_apply (v0 v2 : Vec Ideal S4096x32 .f32) (v25 : Vec Ideal S32x10 .f32) (r : Fin 4096) (k : Fin 10) :
    k1_pay5 (F := Ideal) v0 v2 v25 (ix2 r k)
      = ∑ k' : Fin 10, Spec.expo (Spec.logit (Spec.renorm (fun e => v0 (ix2 r e))) (Spec.renorm (fun e => v2 (ix2 r e))) (fun k d => v25 (ix2 d k))) k' := by
  unfold k1_pay5
  refine (broadcastTo_a1_ab_apply _ _ r k).trans ?_
  refine (shapeCast_a_a1_apply _ _ r 0).trans ?_
  refine (laneSum10_apply _ r).trans ?_
  exact Finset.sum_congr rfl fun k' _ => pay4_apply v0 v2 v25 r k'

/-! ## The score of a row from the five values the store reads -/

theorem pay1_apply (v13 v23 : FVec Ideal S4096x32 .f32) (v27 : Vec Ideal S10x32 .f32) (v37 v40 : FVec Ideal S4096x10 .f32) (r : Fin 4096) :
    k1_pay1 (F := Ideal) v13 v23 v27 v37 v40 (ix1 r)
      = -(∑ d : Fin 32, (v13 (ix2 r d) + (∑ k : Fin 10, Ideal.div (v37 (ix2 r k)) (v40 (ix2 r k)) * v27 (ix2 k d)) - v23 (ix2 r d))
          * (v13 (ix2 r d) + (∑ k : Fin 10, Ideal.div (v37 (ix2 r k)) (v40 (ix2 r k)) * v27 (ix2 k d)) - v23 (ix2 r d))) := by
  unfold k1_pay1
  refine (subf_apply _ _ _).trans ?_
  show Ideal.ofBits .f32 0x00000000#32 - _ = _
  rw [Ideal.ofBits_zero_f32, zero_sub]
  refine congrArg Neg.neg ?_
  refine (laneSum32_apply _ r).trans ?_
  refine Finset.sum_congr rfl fun d _ => ?_
  have hm := matmul_rel_apply (truncf .bf16 (divf v37 v40) bitsLt_bf16_f32) (truncf .bf16 v27 bitsLt_bf16_f32) r d
  show (v13 (ix2 r d) + matmul (F := Ideal) dot_S4096x10_S10x32_S4096x32_1_0_0_1_n_n none (truncf .bf16 (divf v37 v40) bitsLt_bf16_f32) (truncf .bf16 v27 bitsLt_bf16_f32) (constant (F := Ideal) S4096x32 .f32 0x00000000#32) (ix2 r d) - v23 (ix2 r d))
      * (v13 (ix2 r d) + matmul (F := Ideal) dot_S4096x10_S10x32_S4096x32_1_0_0_1_n_n none (truncf .bf16 (divf v37 v40) bitsLt_bf16_f32) (truncf .bf16 v27 bitsLt_bf16_f32) (constant (F := Ideal) S4096x32 .f32 0x00000000#32) (ix2 r d) - v23 (ix2 r d)) = _
  rw [hm]
  rfl

/-! ## The whole-block rectangles sit at offset zero -/

theorem offs1_zero : (![0] : Fin 1 → Nat) = fun _ => 0 := funext fun a => match a with | ⟨0, _⟩ => rfl
theorem offs2_zero : (![0, 0] : Fin 2 → Nat) = fun _ => 0 := funext fun a => match a with | ⟨0, _⟩ => rfl | ⟨1, _⟩ => rfl

end ScoreValue

/-- Row r of the score block. -/
theorem scoreOut_apply (x0 x1 : Vec Ideal S4096x32 .f32) (x2 : Vec Ideal S32x10 .f32) (x3 : Vec Ideal S10x32 .f32) (r : Fin 4096) :
    scoreOut (F := Ideal) x0 x1 x2 x3 (ix1 r)
      = Cert.Proof.Spec.score (fun d => x0 (ix2 r d)) (fun d => x1 (ix2 r d)) (fun k d => x2 (ix2 d k)) (fun k d => x3 (ix2 k d)) := by
  unfold scoreOut
  rw [View.canon_unit_zero ScoreValue.offs1_zero]
  simp only [View.ld_unit_zero (S := S4096x32) ScoreValue.offs2_zero, View.ld_unit_zero (S := S32x10) ScoreValue.offs2_zero,
    View.ld_unit_zero (S := S10x32) ScoreValue.offs2_zero]
  refine (ScoreValue.pay1_apply _ _ _ _ _ r).trans ?_
  unfold Cert.Proof.Spec.score Cert.Proof.Spec.rel Cert.Proof.Spec.prob
  refine congrArg Neg.neg (Finset.sum_congr rfl fun d _ => ?_)
  simp only [ScoreValue.pay2_apply, ScoreValue.pay3_apply, ScoreValue.pay4_apply, ScoreValue.pay5_apply]

end Cert.KernelIdeal.Hand

end
-- ==== Proof.KIValue1.lean ====
/-
  The scoring call's result array after the whole region, over the extended reals: entry b of the result is the
  specification's score of row b of each gathered matrix (as the region found them), the transposed attention matrix and
  the memory matrix. Point t of the region writes back entries 4096 t … 4096 t + 4095, and the four points cover the array.
-/
import proofs.«428979_j90804198572513_1_alg».proof.Proof.KIRegion1
import proofs.«428979_j90804198572513_1_alg».proof.Proof.KIComputeValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The score of batch entry b from whole arrays: rows b of the two gathered matrices, the attention matrix read
    transposed, and the memory matrix. -/
def rowScore (A3 A4 : S16384x32.Idx → EReal) (W : S32x10.Idx → EReal) (M : S10x32.Idx → EReal) (b : Fin 16384) : EReal :=
  Cert.Proof.Spec.score (fun d => A3 (ix2 b d)) (fun d => A4 (ix2 b d)) (fun k d => W (ix2 d k)) (fun k d => M (ix2 k d))

/-- The windows' index maps over the four points: the row-blocked windows sit at block (t, 0), the two small matrices at
    block (0, 0), the result at block t. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = t.val :=
  (by decide +kernel : ∀ t : Fin grid1.N, _)

/-- Row r of the user block at point t is row 4096 t + r of the gathered user matrix. -/
theorem blk0_apply (c : Dev nD) (t : Fin cfg1.N) (r : Fin 4096) (d : Fin 32) (k : Fin 16384) (hk : k.val = 4096 * t.val + r.val) :
    (iblk1 V c 0 t : Vec Ideal S4096x32 .f32) (ix2 r d) = (V c main_v3 : S16384x32.Idx → EReal) (ix2 k d) := by
  obtain ⟨e0, e1, -⟩ := idx_facts1 t
  unfold iblk1
  rw [View.read_apply]
  show V c main_v3 (((cfg1.win 0).blk t).view.emb (ix2 r d)) = V c main_v3 (ix2 k d)
  refine congrArg (V c main_v3) (funext fun a => Fin.ext ?_)
  match a with
  | ⟨0, _⟩ => show win1_0.index t (0 : Fin 2) * 4096 + 1 * r.val = k.val; omega
  | ⟨1, _⟩ => show win1_0.index t (1 : Fin 2) * 32 + 1 * d.val = d.val; omega

/-- Row r of the item block at point t is row 4096 t + r of the gathered item matrix. -/
theorem blk1_apply (c : Dev nD) (t : Fin cfg1.N) (r : Fin 4096) (d : Fin 32) (k : Fin 16384) (hk : k.val = 4096 * t.val + r.val) :
    (iblk1 V c 1 t : Vec Ideal S4096x32 .f32) (ix2 r d) = (V c main_v4 : S16384x32.Idx → EReal) (ix2 k d) := by
  obtain ⟨-, -, e0, e1, -⟩ := idx_facts1 t
  unfold iblk1
  rw [View.read_apply]
  show V c main_v4 (((cfg1.win 1).blk t).view.emb (ix2 r d)) = V c main_v4 (ix2 k d)
  refine congrArg (V c main_v4) (funext fun a => Fin.ext ?_)
  match a with
  | ⟨0, _⟩ => show win1_1.index t (0 : Fin 2) * 4096 + 1 * r.val = k.val; omega
  | ⟨1, _⟩ => show win1_1.index t (1 : Fin 2) * 32 + 1 * d.val = d.val; omega

/-- The attention block at any point is the whole transposed attention matrix. -/
theorem blk2_apply (c : Dev nD) (t : Fin cfg1.N) (d : Fin 32) (k : Fin 10) :
    (iblk1 V c 2 t : Vec Ideal S32x10 .f32) (ix2 d k) = (V c main_v5 : S32x10.Idx → EReal) (ix2 d k) := by
  obtain ⟨-, -, -, -, e0, e1, -⟩ := idx_facts1 t
  unfold iblk1
  rw [View.read_apply]
  show V c main_v5 (((cfg1.win 2).blk t).view.emb (ix2 d k)) = V c main_v5 (ix2 d k)
  refine congrArg (V c main_v5) (funext fun a => Fin.ext ?_)
  match a with
  | ⟨0, _⟩ => show win1_2.index t (0 : Fin 2) * 32 + 1 * d.val = d.val; omega
  | ⟨1, _⟩ => show win1_2.index t (1 : Fin 2) * 10 + 1 * k.val = k.val; omega

/-- The memory block at any point is the whole memory matrix. -/
theorem blk3_apply (c : Dev nD) (t : Fin cfg1.N) (k : Fin 10) (d : Fin 32) :
    (iblk1 V c 3 t : Vec Ideal S10x32 .f32) (ix2 k d) = (V c main_arg5 : S10x32.Idx → EReal) (ix2 k d) := by
  obtain ⟨-, -, -, -, -, -, e0, e1, -⟩ := idx_facts1 t
  unfold iblk1
  rw [View.read_apply]
  show V c main_arg5 (((cfg1.win 3).blk t).view.emb (ix2 k d)) = V c main_arg5 (ix2 k d)
  refine congrArg (V c main_arg5) (funext fun a => Fin.ext ?_)
  match a with
  | ⟨0, _⟩ => show win1_3.index t (0 : Fin 2) * 10 + 1 * k.val = k.val; omega
  | ⟨1, _⟩ => show win1_3.index t (1 : Fin 2) * 32 + 1 * d.val = d.val; omega

/-- Entry r of what the body leaves at point t is the score of batch entry 4096 t + r. -/
theorem after_apply (c : Dev nD) (t : Fin cfg1.N) (r : Fin 4096) (k : Fin 16384) (hk : k.val = 4096 * t.val + r.val) :
    scoreOut (F := Ideal) (iblk1 V c 0 t) (iblk1 V c 1 t) (iblk1 V c 2 t) (iblk1 V c 3 t) (ix1 r)
      = rowScore (V c main_v3) (V c main_v4) (V c main_v5) (V c main_arg5) k := by
  refine (scoreOut_apply (iblk1 V c 0 t) (iblk1 V c 1 t) (iblk1 V c 2 t) (iblk1 V c 3 t) r).trans ?_
  unfold rowScore
  simp only [blk0_apply V c t r _ k hk, blk1_apply V c t r _ k hk, blk2_apply V c t, blk3_apply V c t]

/-- The whole result array as one function of the arrays the region finds. -/
abbrev G1 (c : Dev nD) : S16384.Idx → Elt Ideal .f32 :=
  fun i => rowScore (V c main_v3) (V c main_v4) (V c main_v5) (V c main_arg5) (⟨(i 0).val, (i 0).isLt⟩ : Fin 16384)

/-- What point t writes back is block t of that function. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  obtain ⟨-, -, -, -, -, -, -, -, e0⟩ := idx_facts1 t
  have hN : t.val < 4 := t.isLt
  funext j
  have hj : (j 0).val < 4096 := (j 0).isLt
  show scoreOut (F := Ideal) (iblk1 V c 0 t) (iblk1 V c 1 t) (iblk1 V c 2 t) (iblk1 V c 3 t) j
    = G1 V c (((cfg1.win 4).blk t).view.emb j)
  have ej : j = ix1 (⟨(j 0).val, hj⟩ : Fin 4096) := funext fun a => Fin.ext (by match a with | ⟨0, _⟩ => rfl)
  rw [ej]
  refine (after_apply V c t ⟨(j 0).val, hj⟩ ⟨4096 * t.val + (j 0).val, by omega⟩ rfl).trans ?_
  refine congrArg (rowScore (V c main_v3) (V c main_v4) (V c main_v5) (V c main_arg5)) (Fin.ext ?_)
  show 4096 * t.val + (j 0).val = win1_4.index t (0 : Fin 1) * 4096 + 1 * (j 0).val
  omega

/-- An entry is in point t's block iff its number is in 4096 t … 4096 t + 4095. -/
theorem mem_blk1 (t : Fin cfg1.N) (i : S16384.Idx) :
    i ∈ ((cfg1.win 4).blk t).view.set ↔ ∀ a : Fin 1, win1_4.index t a * S4096.size a ≤ (i a).val ∧ (i a).val < win1_4.index t a * S4096.size a + S4096.size a := by
  show i ∈ ((View.whole main_v6).slice (win1_4.rect t)).set ↔ _
  rw [View.set_slice_whole, Rect.mem_set_unit]
  exact Iff.rfl

/-- Every entry is in the block of point (entry number / 4096). -/
theorem cover1 (i : S16384.Idx) : ∃ t : Fin cfg1.N, (cfg1.win 4).flush t = true ∧ i ∈ ((cfg1.win 4).blk t).view.set := by
  have hi : (i 0).val < 16384 := (i 0).isLt
  refine ⟨⟨(i 0).val / 4096, by show _ < 4; omega⟩, flush1_4 _, ?_⟩
  rw [mem_blk1]
  obtain ⟨-, -, -, -, -, -, -, -, e0⟩ := idx_facts1 ⟨(i 0).val / 4096, by show _ < 4; omega⟩
  intro a
  match a with
  | ⟨0, _⟩ =>
    show win1_4.index _ (0 : Fin 1) * 4096 ≤ (i 0).val ∧ (i 0).val < win1_4.index _ (0 : Fin 1) * 4096 + 4096
    rw [e0]
    show (i 0).val / 4096 * 4096 ≤ (i 0).val ∧ (i 0).val < (i 0).val / 4096 * 4096 + 4096
    omega

/-- The result array after the region is that function. -/
theorem final1 (c : Dev nD) : (dat1 (F := Ideal) V c).arrAt 4 cfg1.N = G1 V c :=
  (dat1 (F := Ideal) V c).arrAt_eq_of_cover 4 (G1 V c) (fun t _ => flushed1_eq V c t) cover1

/-- Entry b of the result array after the scoring region. -/
theorem final1_apply (c : Dev nD) (b : Fin 16384) :
    (dat1 (F := Ideal) V c).arrAt 4 cfg1.N (ix1 b)
      = Cert.Proof.Spec.score (fun d => V c main_v3 (ix2 b d)) (fun d => V c main_v4 (ix2 b d))
          (fun k d => V c main_v5 (ix2 d k)) (fun k d => V c main_arg5 (ix2 k d)) := by
  rw [final1 V c]
  rfl

end Cert.KernelIdeal.Hand

end
-- ==== Proof.KIHost.lean ====
/-
  What the host operations around the two calls do to the buffers, read at an index: before the gather call each
  embedding table is reshaped from [1000000, 32] to [1000000, 1, 32]; between the calls each gathered matrix is reshaped
  from [16384, 1, 32] to [16384, 32] and the attention matrix is transposed to [32, 10]; the memory matrix is untouched.
-/
import proofs.«428979_j90804198572513_1_alg».proof.Proof.KIFrame
import proofs.«428979_j90804198572513_1_alg».proof.Proof.KIGatherValue
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (hO : Ok m)

/-- At the gather call's entry the reshaped user table holds the user table's rows. -/
theorem U1_main_v0_apply (c : Dev nD) (p : Fin 1000000) (d : Fin 32) :
    U1 m c main_v0 (ix3 p (0 : Fin 1) d) = m ((c : Thread nD τ).loc main_arg2) (ix2 p d) := by
  have e : (U1 m c main_v0 : S1000000x1x32.Idx → Elt F .f32)
      = shapeCast S1000000x1x32 (m ((c : Thread nD τ).loc main_arg2)) shapeCasts_S1000000x32_S1000000x1x32 := by
    show StableHlo.after hostOps0 (W0 m c) (Proc.devRef .tc main_v0) = _
    after_results
    rfl
  exact (congrFun e _).trans (tableReshape_apply _ _ p d)
/-- and the reshaped item table the item table's. -/
theorem U1_main_v1_apply (c : Dev nD) (p : Fin 1000000) (d : Fin 32) :
    U1 m c main_v1 (ix3 p (0 : Fin 1) d) = m ((c : Thread nD τ).loc main_arg3) (ix2 p d) := by
  have e : (U1 m c main_v1 : S1000000x1x32.Idx → Elt F .f32)
      = shapeCast S1000000x1x32 (m ((c : Thread nD τ).loc main_arg3)) shapeCasts_S1000000x32_S1000000x1x32 := by
    show StableHlo.after hostOps0 (W0 m c) (Proc.devRef .tc main_v1) = _
    after_results
    rfl
  exact (congrFun e _).trans (tableReshape_apply _ _ p d)

/-- At the scoring call's entry the two gathered matrices are the gather call's result arrays, reshaped. -/
theorem U3_main_v3_apply (c : Dev nD) (b : Fin 16384) (d : Fin 32) :
    U3 m hO c main_v3 (ix2 b d) = (dat0 m hO (U1 m) c).arrAt 2 (cfgM m hO).N (ix3 b (0 : Fin 1) d) := by
  have e : (U3 m hO c main_v3 : S16384x32.Idx → Elt F .f32)
      = shapeCast S16384x32 (W2 m hO c (Proc.devRef .tc main_v2_0)) shapeCasts_S16384x1x32_S16384x32 := by
    show StableHlo.after hostOps1 (W2 m hO c) (Proc.devRef .tc main_v3) = _
    after_results
    rfl
  exact ((congrFun e _).trans (rowsReshape_apply _ _ b d)).trans (congrFun (W2_arr m hO c 2) _)
theorem U3_main_v4_apply (c : Dev nD) (b : Fin 16384) (d : Fin 32) :
    U3 m hO c main_v4 (ix2 b d) = (dat0 m hO (U1 m) c).arrAt 3 (cfgM m hO).N (ix3 b (0 : Fin 1) d) := by
  have e : (U3 m hO c main_v4 : S16384x32.Idx → Elt F .f32)
      = shapeCast S16384x32 (W2 m hO c (Proc.devRef .tc main_v2_1)) shapeCasts_S16384x1x32_S16384x32 := by
    show StableHlo.after hostOps1 (W2 m hO c) (Proc.devRef .tc main_v4) = _
    after_results
    rfl
  exact ((congrFun e _).trans (rowsReshape_apply _ _ b d)).trans (congrFun (W2_arr m hO c 3) _)

/-- The transposed attention matrix. -/
theorem U3_main_v5_apply (c : Dev nD) (d : Fin 32) (k : Fin 10) :
    U3 m hO c main_v5 (ix2 d k) = m ((c : Thread nD τ).loc main_arg4) (ix2 k d) := by
  have e : (U3 m hO c main_v5 : S32x10.Idx → Elt F .f32)
      = transpose S32x10 [1, 0] (W2 m hO c (Proc.devRef .tc main_arg4)) transposes_S10x32_S32x10_1_0 := by
    show StableHlo.after hostOps1 (W2 m hO c) (Proc.devRef .tc main_v5) = _
    after_results
  have hx : W2 m hO c (Proc.devRef .tc main_arg4) = m ((c : Thread nD τ).loc main_arg4) :=
    (W2_of_ne m hO c main_arg4 (by decide)).trans (StableHlo.after_of_writes_sub hostOps0 _ hostOps0_writes (by decide))
  refine (congrFun e _).trans ?_
  refine (transpose_apply [1, 0] _ transposes_S10x32_S32x10_1_0 (ix2 d k) (ix2 k d)
    (fun b => match b with | ⟨0, _⟩ => rfl | ⟨1, _⟩ => rfl)).trans ?_
  exact congrFun hx _

/-- The memory matrix as launched. -/
theorem U3_main_arg5 (c : Dev nD) : U3 m hO c main_arg5 = m ((c : Thread nD τ).loc main_arg5) :=
  W3_main_arg5 m hO c

end Cert.KernelIdeal.Hand

end
-- ==== Proof.KIValue.lean ====
/-
  The idealized kernel program's result as one function of its arguments, over the extended reals: entry b of the
  result is the specification's score of row user_ids[b] of the user table and row item_ids[b] of the item table, with the
  attention and memory matrices. The scoring call's entry b is the score of row b of the two gathered matrices; those are
  the gather call's result arrays reshaped, whose row b is the reshaped table's row ids[b]; the reshaped table's row is the
  table's; and an id below 1000000 names the row of its own number.
-/
import proofs.«428979_j90804198572513_1_alg».proof.Proof.KIValue0
import proofs.«428979_j90804198572513_1_alg».proof.Proof.KIValue1
import proofs.«428979_j90804198572513_1_alg».proof.Proof.KIHost
import proofs.«428979_j90804198572513_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (hO : Ok m)

/-- The result array at the end of the run is the specification's function of the launch contents of the arguments. -/
theorem result_is_G (h0 : ∀ i : S16384.Idx, (tbl m 0 i).toNat < 1000000) (h1 : ∀ i : S16384.Idx, (tbl m 1 i).toNat < 1000000)
    (c : Dev nD) :
    (dat1 (F := Ideal) (U3 m hO) c).arrAt 4 cfg1.N
      = Cert.Proof.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain rfl : c = 0 := Subsingleton.elim _ _
  funext i
  obtain ⟨b, rfl⟩ : ∃ b : Fin 16384, i = ix1 b := ⟨i 0, eq_ix1 i⟩
  rw [final1_apply]
  -- row b of each gathered matrix is the table's row named by the id
  have hu : (fun d : Fin 32 => U3 m hO 0 main_v3 (ix2 b d))
      = fun d => m (((0 : Dev nD) : Thread nD τ).loc main_arg2) (ix2 (Cert.Proof.Spec.rowOf (m (((0 : Dev nD) : Thread nD τ).loc main_arg0) (ix1 b))) d) := by
    funext d
    rw [U3_main_v3_apply, final0_user m hO (U1 m) h0 0 b d, U1_main_v0_apply]
    exact congrArg (fun p : Fin 1000000 => m (((0 : Dev nD) : Thread nD τ).loc main_arg2) (ix2 p d))
      (Fin.ext (Cert.Proof.Spec.rowOf_val _ (h0 (ix1 b))).symm)
  have hv : (fun d : Fin 32 => U3 m hO 0 main_v4 (ix2 b d))
      = fun d => m (((0 : Dev nD) : Thread nD τ).loc main_arg3) (ix2 (Cert.Proof.Spec.rowOf (m (((0 : Dev nD) : Thread nD τ).loc main_arg1) (ix1 b))) d) := by
    funext d
    rw [U3_main_v4_apply, final0_item m hO (U1 m) h1 0 b d, U1_main_v1_apply]
    exact congrArg (fun p : Fin 1000000 => m (((0 : Dev nD) : Thread nD τ).loc main_arg3) (ix2 p d))
      (Fin.ext (Cert.Proof.Spec.rowOf_val _ (h1 (ix1 b))).symm)
  have hw : (fun (k : Fin 10) (d : Fin 32) => U3 m hO 0 main_v5 (ix2 d k))
      = fun k d => m (((0 : Dev nD) : Thread nD τ).loc main_arg4) (ix2 k d) := by
    funext k d; exact U3_main_v5_apply m hO 0 d k
  rw [hu, hv, hw, U3_main_arg5]
  rfl

end Cert.KernelIdeal.Hand

end
-- ==== Proof.PreIds.lean ====
/-
  What the precondition says of the two id vectors: each id, read as an unsigned word, is below 1000000
  (the precondition states 0 ≤ id < 1000000 signed, under one "all" per vector).
-/
import proofs.«428979_j90804198572513_1_alg».proof.Proof.Gen.Pre_finite_inputs
import Idealize.ShloMosaic.Lib.ReduceAll

noncomputable section

namespace Cert.Proof.PreIds

open Idealize.ShloMosaic
open Cert.Pre_finite_inputs

variable {F : FTy → Type} [FloatOps F]

/-- The scalar shape has one index. -/
instance subsingleton_S_ : Subsingleton S_.Idx := ⟨fun a b => funext fun d => d.elim0⟩

/-- A one-bit word made from a boolean is 1 exactly when the boolean is true. -/
theorem ofBool_eq_one (b : Bool) : BitVec.ofBool b = 1#1 ↔ b = true := by cases b <;> decide

/-- A conjunction of one-bit words is 1 exactly when both are. -/
theorem and1 : ∀ (a b : BitVec 1), IntOp.andi a b = 1#1 ↔ a = 1#1 ∧ b = 1#1 := by decide

/-- A word in [0, 1000000) signed is below 1000000 unsigned. -/
theorem toNat_lt (w : BitVec 32) (h0 : IntOp.cmpi .sge w (0#32) = 1#1)
    (h1 : IntOp.cmpi .slt w (1000000#32) = 1#1) : w.toNat < 1000000 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- One vector's "all" conjunct, read at a lane: the id there is below 1000000. -/
theorem lane (a : IVec S16384 32) (init : IVec S_ 1) (hb : S_.BroadcastsInDim S16384 (![] : Fin 0 → Fin S16384.rank))
    (hr : S16384.ReducesTo [0] S_) (hn : 0 < S_.numel) (j : S_.Idx)
    (e : Host.reduce IntOp.andi
        (andi (cmpi .sge a (broadcastInDim S16384 ![] hb (constantI S_ 32 0#32)))
          (cmpi .slt a (broadcastInDim S16384 ![] hb (constantI S_ 32 1000000#32)))) init hr hn j = 1#1)
    (i : S16384.Idx) : (a i).toNat < 1000000 := by
  have p := Host.reduce_andi_all _ init hr hn j e i
  obtain ⟨p0, p1⟩ := (and1 _ _).1 p
  exact toNat_lt (a i) p0 p1

/-- The precondition's two integer conjuncts, decoded lane by lane. -/
theorem ids_of_pre (a0 a1 : IVec S16384 32) (a2 a3 : FVec F S1000000x32 .f32) (a4 a5 : FVec F S10x32 .f32)
    (h : Cert.Pre_finite_inputs.fn (F := F) a0 a1 a2 a3 a4 a5 = fun _ => 1#1) :
    (∀ i : S16384.Idx, (a0 i).toNat < 1000000) ∧ (∀ i : S16384.Idx, (a1 i).toNat < 1000000) := by
  have e := congrFun h (fun d => d.elim0)
  dsimp only [fn, fn_part1] at e
  obtain ⟨e', e1⟩ := (and1 _ _).1 e
  obtain ⟨-, e0⟩ := (and1 _ _).1 e'
  exact ⟨lane a0 _ _ _ _ _ e0, lane a1 _ _ _ _ _ e1⟩

end Cert.Proof.PreIds

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.RefValue.lean ====
/-
  The reference side of the value claim: what the idealized reference leaves in its result, read index by index, is the
  specification's function of the six arguments, once every id is known to name a row of its table.
-/
import proofs.«428979_j90804198572513_1_alg».proof.Proof.Gen.ReferenceIdeal.Read
import proofs.«428979_j90804198572513_1_alg».proof.Proof.Spec
import proofs.«428979_j90804198572513_1_alg».proof.Proof.LibRowIndex
import Idealize.ShloMosaic.PureOps.Ideal.Laws

noncomputable section

namespace Cert.Proof.RefValue

open Idealize.ShloMosaic Idealize.ShloMosaic.ValueIdx
open Cert.ReferenceIdeal Cert.ReferenceIdeal.Gen Cert.ReferenceIdeal.Read

/-- A word below 1000000 unsigned is not negative read signed. -/
theorem not_slt_zero (w : BitVec 32) (h : w.toNat < 1000000) : IntOp.cmpi .slt w 0#32 = 0#1 := by
  have h32 := w.isLt
  unfold IntOp.cmpi
  have : w.slt 0#32 = false := by
    simp only [BitVec.slt, BitVec.toInt, decide_eq_false_iff_not]
    simp
    omega
  simp only [this]
  rfl

/-- The select of the first id stage keeps the id. -/
theorem sel_user (x0 : (⟨S16384, .i32⟩ : BufTy).Contents (Elt Ideal)) (h0 : ∀ i : S16384.Idx, (x0 i).toNat < 1000000)
    (i : S16384.Idx) : val_main_v4 (F := Ideal) x0 i = x0 i := by
  rw [val_main_v4_apply, val_main_v1_apply, val_main_v0_apply, val_main_c_apply, not_slt_zero _ (h0 i), select_zero]

/-- The select of the second id stage keeps the id. -/
theorem sel_item (x1 : (⟨S16384, .i32⟩ : BufTy).Contents (Elt Ideal)) (h1 : ∀ i : S16384.Idx, (x1 i).toNat < 1000000)
    (i : S16384.Idx) : val_main_v18 (F := Ideal) x1 i = x1 i := by
  rw [val_main_v18_apply, val_main_v15_apply, val_main_v14_apply, val_main_c_2_apply, not_slt_zero _ (h1 i), select_zero]

/-- The row gather's dimension numbers are those of a gather of whole rows. -/
theorem gather_rec : gather_S1000000x32_S16384x1_S16384x32_1_0_n_n_0_1_132
    = RowIndex.rowGatherDims 1000000 32 16384 gather_S1000000x32_S16384x1_S16384x32_1_0_n_n_0_1_132_wf := rfl

/-- Entry (b, d) of the first gathered matrix is column d of the user table's row named by id b. -/
theorem row_user (x0 : (⟨S16384, .i32⟩ : BufTy).Contents (Elt Ideal)) (x2 : (⟨S1000000x32, .f32⟩ : BufTy).Contents (Elt Ideal))
    (h0 : ∀ i : S16384.Idx, (x0 i).toNat < 1000000) (b : Fin 16384) (d : Fin 32) :
    val_main_v6 (F := Ideal) x0 x2 (ix2 b d) = x2 (ix2 (Spec.rowOf (x0 (ix1 b))) d) := by
  unfold val_main_v6
  rw [gather_rec]
  refine (RowIndex.gather_rows_apply (by decide) _ x2 (val_main_v5 (F := Ideal) x0) b d).trans ?_
  have e : idx_main_v5 (ix2 b (0 : Fin 1)) = ix1 b := funext fun a => Fin.ext (by match a with | ⟨0, _⟩ => rfl)
  have e2 : val_main_v5 (F := Ideal) x0 (ix2 b (0 : Fin 1)) = x0 (ix1 b) := by
    rw [val_main_v5_apply, e, sel_user x0 h0]
  refine congrArg (fun r => x2 (ix2 r d)) (Fin.ext ?_)
  show min (BitVec.toInt (val_main_v5 (F := Ideal) x0 (ix2 b (0 : Fin 1)))).toNat (1000000 - 1) = min (x0 (ix1 b)).toInt.toNat (1000000 - 1)
  rw [e2]

/-- The first table's per-entry factor 1 / max (‖row‖, 1), the norm being the square root of 0 plus the sum of squares. -/
theorem scale_user (x0 : (⟨S16384, .i32⟩ : BufTy).Contents (Elt Ideal)) (x2 : (⟨S1000000x32, .f32⟩ : BufTy).Contents (Elt Ideal))
    (h0 : ∀ i : S16384.Idx, (x0 i).toNat < 1000000) (b : Fin 16384) :
    val_main_v11 (F := Ideal) x0 x2 (ix2 b (0 : Fin 1)) = Spec.scale (fun d => x2 (ix2 (Spec.rowOf (x0 (ix1 b))) d)) := by
  rw [val_main_v11_apply, val_main_v10_apply, val_main_cst_1_apply, val_main_v9_apply, val_main_v8_apply, val_main_cst_apply,
    val_main_v7_apply, val_main_call0_v2_apply, val_main_call0_v1_apply, val_main_call0_cst_apply]
  simp only [val_main_call0_v0_apply]
  have e : ∀ k : Fin 32, idx_main_call0_v1 (idx_main_call0_v2 (ix2 b (0 : Fin 1))) k = ix2 b k :=
    fun k => funext fun a => Fin.ext (by match a with | ⟨0, _⟩ => rfl | ⟨1, _⟩ => rfl)
  simp only [e, row_user x0 x2 h0]
  simp only [Ideal.hostDivf_def, Ideal.maximumf_def, Ideal.hostUnary_sqrt_def, Ideal.mulf_def, Ideal.ofBits_def,
    Ideal.ofBits_zero_f32, zero_add]
  rfl

/-- The rescaled user row. -/
theorem renorm_user (x0 : (⟨S16384, .i32⟩ : BufTy).Contents (Elt Ideal)) (x2 : (⟨S1000000x32, .f32⟩ : BufTy).Contents (Elt Ideal))
    (h0 : ∀ i : S16384.Idx, (x0 i).toNat < 1000000) (b : Fin 16384) (d : Fin 32) :
    val_main_v13 (F := Ideal) x0 x2 (ix2 b d) = Spec.renorm (fun d => x2 (ix2 (Spec.rowOf (x0 (ix1 b))) d)) d := by
  rw [val_main_v13_apply, val_main_v12_apply]
  have e : idx_main_v12 (ix2 b d) = ix2 b (0 : Fin 1) :=
    funext fun a => Fin.ext (by match a with | ⟨0, _⟩ => rfl | ⟨1, _⟩ => rfl)
  rw [e, scale_user x0 x2 h0, row_user x0 x2 h0]
  rfl

/-- Entry (b, d) of the second gathered matrix is column d of the item table's row named by id b. -/
theorem row_item (x1 : (⟨S16384, .i32⟩ : BufTy).Contents (Elt Ideal)) (x3 : (⟨S1000000x32, .f32⟩ : BufTy).Contents (Elt Ideal))
    (h1 : ∀ i : S16384.Idx, (x1 i).toNat < 1000000) (b : Fin 16384) (d : Fin 32) :
    val_main_v20 (F := Ideal) x1 x3 (ix2 b d) = x3 (ix2 (Spec.rowOf (x1 (ix1 b))) d) := by
  unfold val_main_v20
  rw [gather_rec]
  refine (RowIndex.gather_rows_apply (by decide) _ x3 (val_main_v19 (F := Ideal) x1) b d).trans ?_
  have e : idx_main_v19 (ix2 b (0 : Fin 1)) = ix1 b := funext fun a => Fin.ext (by match a with | ⟨0, _⟩ => rfl)
  have e2 : val_main_v19 (F := Ideal) x1 (ix2 b (0 : Fin 1)) = x1 (ix1 b) := by
    rw [val_main_v19_apply, e, sel_item x1 h1]
  refine congrArg (fun r => x3 (ix2 r d)) (Fin.ext ?_)
  show min (BitVec.toInt (val_main_v19 (F := Ideal) x1 (ix2 b (0 : Fin 1)))).toNat (1000000 - 1) = min (x1 (ix1 b)).toInt.toNat (1000000 - 1)
  rw [e2]

/-- The second table's per-entry factor. -/
theorem scale_item (x1 : (⟨S16384, .i32⟩ : BufTy).Contents (Elt Ideal)) (x3 : (⟨S1000000x32, .f32⟩ : BufTy).Contents (Elt Ideal))
    (h1 : ∀ i : S16384.Idx, (x1 i).toNat < 1000000) (b : Fin 16384) :
    val_main_v25 (F := Ideal) x1 x3 (ix2 b (0 : Fin 1)) = Spec.scale (fun d => x3 (ix2 (Spec.rowOf (x1 (ix1 b))) d)) := by
  rw [val_main_v25_apply, val_main_v24_apply, val_main_cst_5_apply, val_main_v23_apply, val_main_v22_apply, val_main_cst_4_apply,
    val_main_v21_apply, val_main_call1_v2_apply, val_main_call1_v1_apply, val_main_call1_cst_apply]
  simp only [val_main_call1_v0_apply]
  have e : ∀ k : Fin 32, idx_main_call1_v1 (idx_main_call1_v2 (ix2 b (0 : Fin 1))) k = ix2 b k :=
    fun k => funext fun a => Fin.ext (by match a with | ⟨0, _⟩ => rfl | ⟨1, _⟩ => rfl)
  simp only [e, row_item x1 x3 h1]
  simp only [Ideal.hostDivf_def, Ideal.maximumf_def, Ideal.hostUnary_sqrt_def, Ideal.mulf_def, Ideal.ofBits_def,
    Ideal.ofBits_zero_f32, zero_add]
  rfl

/-- The rescaled item row. -/
theorem renorm_item (x1 : (⟨S16384, .i32⟩ : BufTy).Contents (Elt Ideal)) (x3 : (⟨S1000000x32, .f32⟩ : BufTy).Contents (Elt Ideal))
    (h1 : ∀ i : S16384.Idx, (x1 i).toNat < 1000000) (b : Fin 16384) (d : Fin 32) :
    val_main_v27 (F := Ideal) x1 x3 (ix2 b d) = Spec.renorm (fun d => x3 (ix2 (Spec.rowOf (x1 (ix1 b))) d)) d := by
  rw [val_main_v27_apply, val_main_v26_apply]
  have e : idx_main_v26 (ix2 b d) = ix2 b (0 : Fin 1) :=
    funext fun a => Fin.ext (by match a with | ⟨0, _⟩ => rfl | ⟨1, _⟩ => rfl)
  rw [e, scale_item x1 x3 h1, row_item x1 x3 h1]
  rfl

/-- The ten attention logits of batch entry b, as the specification writes them. -/
abbrev lgt (x0 x1 : (⟨S16384, .i32⟩ : BufTy).Contents (Elt Ideal)) (x2 x3 : (⟨S1000000x32, .f32⟩ : BufTy).Contents (Elt Ideal))
    (x4 : (⟨S10x32, .f32⟩ : BufTy).Contents (Elt Ideal)) (b : Fin 16384) : Fin 10 → EReal :=
  Spec.logit (Spec.renorm (fun d => x2 (ix2 (Spec.rowOf (x0 (ix1 b))) d))) (Spec.renorm (fun d => x3 (ix2 (Spec.rowOf (x1 (ix1 b))) d)))
    (fun k d => x4 (ix2 k d))

/-- The contraction with the transposed attention matrix gives the specification's logits. -/
theorem logit_ref (x0 x1 : (⟨S16384, .i32⟩ : BufTy).Contents (Elt Ideal)) (x2 x3 : (⟨S1000000x32, .f32⟩ : BufTy).Contents (Elt Ideal))
    (x4 : (⟨S10x32, .f32⟩ : BufTy).Contents (Elt Ideal))
    (h0 : ∀ i : S16384.Idx, (x0 i).toNat < 1000000) (h1 : ∀ i : S16384.Idx, (x1 i).toNat < 1000000) (b : Fin 16384) (k : Fin 10) :
    val_main_v30 (F := Ideal) x0 x1 x2 x3 x4 (ix2 b k) = lgt x0 x1 x2 x3 x4 b k := by
  rw [val_main_v30_apply]
  show _ = ∑ d : Fin 32, _
  refine Finset.sum_congr rfl fun d _ => ?_
  have el : lidx_main_v30 (ix2 b k) d = ix2 b d :=
    funext fun a => Fin.ext (by match a with | ⟨0, _⟩ => rfl | ⟨1, _⟩ => rfl)
  have er : ridx_main_v30 (ix2 b k) d = ix2 d k :=
    funext fun a => Fin.ext (by match a with | ⟨0, _⟩ => rfl | ⟨1, _⟩ => rfl)
  have et : idx_main_v29 (ix2 d k) = ix2 k d :=
    funext fun a => Fin.ext (by match a with | ⟨0, _⟩ => rfl | ⟨1, _⟩ => rfl)
  rw [el, er, val_main_v28_apply, val_main_v29_apply, et, renorm_user x0 x2 h0, renorm_item x1 x3 h1]
  rfl

/-- A batch index with a logit coordinate put back on the reduced axis is the pair. -/
theorem lift_logit (h : S16384x10.Reduces [1] S16384) (b : Fin 16384) (k : Fin (S16384x10.size 1)) :
    h.lift (ix1 b) k = ix2 b (⟨k.val, k.isLt⟩ : Fin 10) := by
  funext c; apply Fin.ext
  match c with
  | ⟨0, _⟩ => rfl
  | ⟨1, _⟩ => rfl

/-- The maximum-reduce over the ten logits from −∞, then the maximum with −∞, is the specification's largest logit. -/
theorem top_ref (x0 x1 : (⟨S16384, .i32⟩ : BufTy).Contents (Elt Ideal)) (x2 x3 : (⟨S1000000x32, .f32⟩ : BufTy).Contents (Elt Ideal))
    (x4 : (⟨S10x32, .f32⟩ : BufTy).Contents (Elt Ideal))
    (h0 : ∀ i : S16384.Idx, (x0 i).toNat < 1000000) (h1 : ∀ i : S16384.Idx, (x1 i).toNat < 1000000) (b : Fin 16384) :
    val_main_v33 (F := Ideal) x0 x1 x2 x3 x4 (ix1 b) = Spec.top (lgt x0 x1 x2 x3 x4 b) := by
  rw [val_main_v33_apply, val_main_v32_apply, val_main_cst_7_apply]
  unfold val_main_v31
  have hr : S16384x10.Reduces [1] S16384 := by decide
  rw [Host.reduce_eq_fold_single FloatOps.maximumf _ _ reducesTo_S16384x10_S16384_d1 hr h_S_, val_main_cst_6_apply]
  have hf : (val_main_v30 (F := Ideal) x0 x1 x2 x3 x4 ∘ hr.lift (ix1 b)) = fun k : Fin 10 => lgt x0 x1 x2 x3 x4 b k :=
    funext fun k => (congrArg (val_main_v30 (F := Ideal) x0 x1 x2 x3 x4) (lift_logit hr b k)).trans
      (logit_ref x0 x1 x2 x3 x4 h0 h1 b ⟨k.val, k.isLt⟩)
  rw [hf]
  rfl

/-- The composed index of the two broadcasts of a per-entry value over the ten logits is the entry's own index. -/
theorem idx_bcast10 (b : Fin 16384) (k : Fin 10) : idx_main_v34 (idx_main_v35 (ix2 b k)) = ix1 b :=
  funext fun a => Fin.ext (by match a with | ⟨0, _⟩ => rfl)

/-- The shifted exponentials. -/
theorem expo_ref (x0 x1 : (⟨S16384, .i32⟩ : BufTy).Contents (Elt Ideal)) (x2 x3 : (⟨S1000000x32, .f32⟩ : BufTy).Contents (Elt Ideal))
    (x4 : (⟨S10x32, .f32⟩ : BufTy).Contents (Elt Ideal))
    (h0 : ∀ i : S16384.Idx, (x0 i).toNat < 1000000) (h1 : ∀ i : S16384.Idx, (x1 i).toNat < 1000000) (b : Fin 16384) (k : Fin 10) :
    val_main_v37 (F := Ideal) x0 x1 x2 x3 x4 (ix2 b k) = Spec.expo (lgt x0 x1 x2 x3 x4 b) k := by
  rw [val_main_v37_apply, val_main_v36_apply, val_main_v35_apply, val_main_v34_apply, idx_bcast10,
    top_ref x0 x1 x2 x3 x4 h0 h1, logit_ref x0 x1 x2 x3 x4 h0 h1]
  rfl

/-- The softmax weights: each shifted exponential over 0 plus their sum. -/
theorem prob_ref (x0 x1 : (⟨S16384, .i32⟩ : BufTy).Contents (Elt Ideal)) (x2 x3 : (⟨S1000000x32, .f32⟩ : BufTy).Contents (Elt Ideal))
    (x4 : (⟨S10x32, .f32⟩ : BufTy).Contents (Elt Ideal))
    (h0 : ∀ i : S16384.Idx, (x0 i).toNat < 1000000) (h1 : ∀ i : S16384.Idx, (x1 i).toNat < 1000000) (b : Fin 16384) (k : Fin 10) :
    val_main_v41 (F := Ideal) x0 x1 x2 x3 x4 (ix2 b k) = Spec.prob (lgt x0 x1 x2 x3 x4 b) k := by
  rw [val_main_v41_apply, val_main_v40_apply, val_main_v39_apply, val_main_v38_apply, val_main_cst_8_apply,
    expo_ref x0 x1 x2 x3 x4 h0 h1]
  have e : ∀ k' : Fin 10, idx_main_v38 (idx_main_v39 (idx_main_v40 (ix2 b k))) k' = ix2 b k' :=
    fun k' => funext fun a => Fin.ext (by match a with | ⟨0, _⟩ => rfl | ⟨1, _⟩ => rfl)
  simp only [e, expo_ref x0 x1 x2 x3 x4 h0 h1]
  simp only [Ideal.hostDivf_def, Ideal.ofBits_def, Ideal.ofBits_zero_f32, zero_add]
  rfl

/-- The contraction of the weights with the memory is the relation vector. -/
theorem rel_ref (x0 x1 : (⟨S16384, .i32⟩ : BufTy).Contents (Elt Ideal)) (x2 x3 : (⟨S1000000x32, .f32⟩ : BufTy).Contents (Elt Ideal))
    (x4 x5 : (⟨S10x32, .f32⟩ : BufTy).Contents (Elt Ideal))
    (h0 : ∀ i : S16384.Idx, (x0 i).toNat < 1000000) (h1 : ∀ i : S16384.Idx, (x1 i).toNat < 1000000) (b : Fin 16384) (d : Fin 32) :
    val_main_v42 (F := Ideal) x0 x1 x2 x3 x4 x5 (ix2 b d)
      = Spec.rel (Spec.prob (lgt x0 x1 x2 x3 x4 b)) (fun k d => x5 (ix2 k d)) d := by
  rw [val_main_v42_apply]
  show _ = ∑ k : Fin 10, _
  refine Finset.sum_congr rfl fun k _ => ?_
  have el : lidx_main_v42 (ix2 b d) k = ix2 b k :=
    funext fun a => Fin.ext (by match a with | ⟨0, _⟩ => rfl | ⟨1, _⟩ => rfl)
  have er : ridx_main_v42 (ix2 b d) k = ix2 k d :=
    funext fun a => Fin.ext (by match a with | ⟨0, _⟩ => rfl | ⟨1, _⟩ => rfl)
  rw [el, er, prob_ref x0 x1 x2 x3 x4 h0 h1]

/-- The reference's result is the specification's function of its arguments. -/
theorem ref_is_G (x0 x1 : (⟨S16384, .i32⟩ : BufTy).Contents (Elt Ideal)) (x2 x3 : (⟨S1000000x32, .f32⟩ : BufTy).Contents (Elt Ideal))
    (x4 x5 : (⟨S10x32, .f32⟩ : BufTy).Contents (Elt Ideal))
    (h0 : ∀ i : S16384.Idx, (x0 i).toNat < 1000000) (h1 : ∀ i : S16384.Idx, (x1 i).toNat < 1000000) :
    val_main_v47 (F := Ideal) x0 x1 x2 x3 x4 x5 = Cert.Proof.Spec.G x0 x1 x2 x3 x4 x5 := by
  funext i
  obtain ⟨b, rfl⟩ : ∃ b : Fin 16384, i = ix1 b := ⟨i 0, eq_ix1 i⟩
  rw [val_main_v47_apply, val_main_v46_apply, val_main_cst_9_apply]
  have e : ∀ d : Fin 32, idx_main_v46 (ix1 b) d = ix2 b d :=
    fun d => funext fun a => Fin.ext (by match a with | ⟨0, _⟩ => rfl | ⟨1, _⟩ => rfl)
  simp only [e, val_main_v45_apply, val_main_v44_apply, val_main_v43_apply, renorm_user x0 x2 h0, renorm_item x1 x3 h1,
    rel_ref x0 x1 x2 x3 x4 x5 h0 h1]
  simp only [Ideal.hostNegf_def, Ideal.negf_def, Ideal.mulf_def, Ideal.subf_def, Ideal.addf_def, Ideal.ofBits_def,
    Ideal.ofBits_zero_f32, zero_add]
  rfl

end Cert.Proof.RefValue

end
-- ==== Proof.lean ====
/-
  The certificate's claim: the embedding-lookup scorer as two pipelined calls (a row gather through the two id tables,
  then a blockwise scorer) against its array-level reference.

  Precondition: every float input finite, and every user id and item id in [0, 1000000): the ids index 1000000-row
  tables, in the reference's gather as in the kernel's table-indexed windows.

  Frames. The kernel program, at the word level and idealized, is run as four segments (host reshapes, the gather call,
  host reshapes and a transpose, the scoring call); the gather call's index maps read the id tables, and its blocks lie
  inside the tables because every id is below 1000000. The reference's frame is its run with the result dropped.

  Value. Over the extended reals both programs compute, for batch entry b, the score of row user_ids[b] and row
  item_ids[b] (each rescaled to norm at most one, attention logits of their product, softmax, the memory rows mixed, minus
  the squared distance): the kernel through its folded write-backs, the reference operation by operation. The two differ
  only in tiling, in how sums and the row maximum are grouped, and in the kernel's 0 − x against the reference's −x; no
  law beyond commutativity and associativity of + and max is used, so the finiteness of the float inputs is not.
-/
import proofs.«428979_j90804198572513_1_alg».proof.Defs
import proofs.«428979_j90804198572513_1_alg».proof.Proof.KFrame
import proofs.«428979_j90804198572513_1_alg».proof.Proof.KOk
import proofs.«428979_j90804198572513_1_alg».proof.Proof.KIFrame
import proofs.«428979_j90804198572513_1_alg».proof.Proof.KIOk
import proofs.«428979_j90804198572513_1_alg».proof.Proof.KIValue
import proofs.«428979_j90804198572513_1_alg».proof.Proof.PreIds
import proofs.«428979_j90804198572513_1_alg».proof.Proof.RefValue
import proofs.«428979_j90804198572513_1_alg».proof.Proof.Gen.Kernel
import proofs.«428979_j90804198572513_1_alg».proof.Proof.Gen.KernelIdeal
import proofs.«428979_j90804198572513_1_alg».proof.Proof.Gen.ReferenceIdeal
import proofs.«428979_j90804198572513_1_alg».proof.Proof.Gen.ReferenceIdeal.Run
import proofs.«428979_j90804198572513_1_alg».proof.Proof.Gen.ReferenceIdeal.Read
import proofs.«428979_j90804198572513_1_alg».proof.Proof.Gen.Pre_finite_inputs
import Idealize.ShloMosaic.Adequacy
import Idealize.ShloMosaic.Init

noncomputable section

namespace Cert.Proof

open Idealize.ShloMosaic Idealize.SL.Sem

/-- Under the precondition every id of the word-level program's tables is below 1000000, so the gather's blocks lie
    inside the tables. -/
theorem ok_kernel (m : (ℓ : Loc Cert.Kernel.nD Cert.Kernel.τ Cert.Kernel.sig) → Buf (Elt Bits) ℓ) (h : Cert.Pre_Kernel m) :
    Cert.Kernel.Hand.Ok m :=
  Cert.Kernel.Hand.ok_of_ids m (Cert.Proof.PreIds.ids_of_pre _ _ _ _ _ _ (h 0)).1 (Cert.Proof.PreIds.ids_of_pre _ _ _ _ _ _ (h 0)).2

/-- The same of the idealized program's. -/
theorem ids_kernelIdeal (m : (ℓ : Loc Cert.KernelIdeal.nD Cert.KernelIdeal.τ Cert.KernelIdeal.sig) → Buf (Elt Ideal) ℓ)
    (h : Cert.Pre_KernelIdeal m) :
    (∀ i : Cert.KernelIdeal.S16384.Idx, (Cert.KernelIdeal.Hand.tbl m 0 i).toNat < 1000000)
      ∧ (∀ i : Cert.KernelIdeal.S16384.Idx, (Cert.KernelIdeal.Hand.tbl m 1 i).toNat < 1000000) :=
  Cert.Proof.PreIds.ids_of_pre _ _ _ _ _ _ (h 0)
theorem ok_kernelIdeal (m : (ℓ : Loc Cert.KernelIdeal.nD Cert.KernelIdeal.τ Cert.KernelIdeal.sig) → Buf (Elt Ideal) ℓ)
    (h : Cert.Pre_KernelIdeal m) : Cert.KernelIdeal.Hand.Ok m :=
  Cert.KernelIdeal.Hand.ok_of_ids m (ids_kernelIdeal m h).1 (ids_kernelIdeal m h).2

theorem frame_k : Cert.frame_Kernel := fun m ρ h => Cert.Kernel.Hand.frame m ρ (ok_kernel m h)
theorem frame_ki : Cert.frame_KernelIdeal := fun m ρ h => Cert.KernelIdeal.Hand.frame m ρ (ok_kernelIdeal m h)
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both idealized programs end with the specification's function of the (agreeing) arguments in their result. -/
theorem algebraic : Cert.algebraic_KernelIdeal_ReferenceIdeal := by
  intro m ρ m' ρ' hpre hagree
  have hids := ids_kernelIdeal m hpre
  refine ⟨_, Cert.KernelIdeal.Hand.run_value m ρ (ok_kernelIdeal m hpre), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v47_eq, (hagree 0).1, (hagree 0).2.1, (hagree 0).2.2.1, (hagree 0).2.2.2.1,
    (hagree 0).2.2.2.2.1, (hagree 0).2.2.2.2.2]
  exact (Cert.Proof.RefValue.ref_is_G
      (m (((0 : Dev Cert.KernelIdeal.nD).tc : Thread Cert.KernelIdeal.nD Cert.KernelIdeal.τ).loc Cert.KernelIdeal.main_arg0))
      (m (((0 : Dev Cert.KernelIdeal.nD).tc : Thread Cert.KernelIdeal.nD Cert.KernelIdeal.τ).loc Cert.KernelIdeal.main_arg1))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3))
      (m (((0 : Dev Cert.KernelIdeal.nD).tc : Thread Cert.KernelIdeal.nD Cert.KernelIdeal.τ).loc Cert.KernelIdeal.main_arg4))
      (m (((0 : Dev Cert.KernelIdeal.nD).tc : Thread Cert.KernelIdeal.nD Cert.KernelIdeal.τ).loc Cert.KernelIdeal.main_arg5))
      hids.1 hids.2).trans
    (Cert.KernelIdeal.Hand.result_is_G m (ok_kernelIdeal m hpre) hids.1 hids.2 0).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
